-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S40x40 : Shape := ⟨2, ![40, 40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S40x40 : S_.BroadcastsInDim S40x40 (![] : Fin 0 → Fin S40x40.rank)
  reducesTo_S40x40_S_d0_1 : S40x40.ReducesTo [0, 1] S_

variable [Facts]

def fn_part1 {F : FTy → Type} [FloatOps F] (main_arg5 : FVec F S40 .f32) (main_arg6 : FVec F S40x40 .f32) (main_arg7 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S40x40 .f32 := Host.absf main_arg6
  let main_cst_8 : FVec F S_ .f32 := constant S_ .f32 0x7F800000#32
  let main_v25 : FVec F S40x40 .f32 := broadcastInDim S40x40 ![] bcast_S_S40x40 main_cst_8
  let main_v26 : IVec S40x40 1 := cmpf .olt main_v24 main_v25
  let main_c_9 : IVec S_ 1 := constantI S_ 1 1#1
  let main_v27 : IVec S_ 1 := (fun x v => Host.reduce IntOp.andi x v reducesTo_S40x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x40 .f32) (main_arg5 : FVec F S40 .f32) (main_arg6 : FVec F S40x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S40x40 : Shape := ⟨2, ![40, 40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩

abbrev nBuf : Space → Nat
  | .hbm => 92
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S40x40, .f32⟩
  | .hbm, ⟨7, _⟩ => ⟨S40, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S_, .f32⟩
  | .hbm, ⟨52, _⟩ => ⟨S128, .f32⟩
  | .hbm, ⟨53, _⟩ => ⟨S50000x128, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x1, .f32⟩
  | .hbm, ⟨64, _⟩ => ⟨S850000x128, .f32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S40, .f32⟩
  | .hbm, ⟨73, _⟩ => ⟨S50000x40, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x40, .f32⟩
  | .hbm, ⟨83, _⟩ => ⟨S850000x1, .f32⟩
  | .hbm, ⟨84, _⟩ => ⟨S850000x40, .f32⟩
  | .hbm, ⟨85, _⟩ => ⟨S850000x40, .f32⟩
  | .hbm, ⟨86, _⟩ => ⟨S_, .f32⟩
  | .hbm, ⟨87, _⟩ => ⟨S50000x40, .f32⟩
  | .hbm, ⟨88, _⟩ => ⟨S850000x1, .i32⟩
  | .hbm, ⟨89, _⟩ => ⟨S50000x40, .f32⟩
  | .hbm, ⟨90, _⟩ => ⟨S50000x40, .f32⟩
  | .hbm, ⟨91, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x40, .f32⟩
  | .local _ .vmem, ⟨14, _⟩ => ⟨S40, .f32⟩
  | .local _ .vmem, ⟨15, _⟩ => ⟨S5000x40, .f32⟩
  | .local _ .vmem, ⟨16, _⟩ => ⟨S5000x40, .f32⟩
  | .local _ .vmem, ⟨17, _⟩ => ⟨S5000x40, .f32⟩
  | .local _ .vmem, ⟨18, _⟩ => ⟨S5000x40, .f32⟩
  | .local _ .vmem, ⟨19, _⟩ => ⟨S40, .f32⟩
  | .local _ .vmem, ⟨20, _⟩ => ⟨S5000x40, .f32⟩
  | .local _ .vmem, ⟨21, _⟩ => ⟨S5000x40, .f32⟩
  | .local _ .vmem, ⟨22, _⟩ => ⟨S5000x40, .f32⟩
  | .local _ .vmem, ⟨23, _⟩ => ⟨S5000x40, .f32⟩
  | .local _ .vmem, ⟨24, _⟩ => ⟨S40x40, .f32⟩
  | .local _ .vmem, ⟨25, _⟩ => ⟨S40, .f32⟩
  | .local _ .vmem, ⟨26, _⟩ => ⟨S5000x40, .f32⟩
  | .local _ .vmem, ⟨27, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_c_12 : Ref sig .tc := ⟨.hbm, 74, rfl⟩
abbrev main_v50 : Ref sig .tc := ⟨.hbm, 75, rfl⟩
abbrev main_v51 : Ref sig .tc := ⟨.hbm, 76, rfl⟩
abbrev main_c_13 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S40x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S128 : S_.BroadcastsInDim S128 (![] : Fin 0 → Fin S128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S40 : S_.BroadcastsInDim S40 (![] : Fin 0 → Fin S40.rank)
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S5000x40_S5000x40 : S5000x40.ShapeCasts S5000x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  inb_S40x40_S40x40_0_0 : ∀ a, (![0, 0] : Fin 2 → Nat) a + S40x40.size a ≤ S40x40.size a
  h_S40x40 : 0 < S40x40.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  dot_S5000x40_S40x40_S5000x40_1_0_0_1_n_n_wf : DotDims.WF S5000x40 S40x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S40.size a ≤ S40.size a
  hwx2_2 : ∀ i : grid2.Coords, EltTy.bits .f32 = 32 ∨ (Rect.block (s := S40) S40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S50000x40.size a
  hwx2_3 : ∀ i : grid2.Coords, EltTy.bits .f32 = 32 ∨ (Rect.block (s := S50000x40) S5000x40.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S50000x40.size a
  hwx3_0 : ∀ i : grid3.Coords, EltTy.bits .f32 = 32 ∨ (Rect.block (s := S50000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S40.size a ≤ S40.size a
  hwx3_1 : ∀ i : grid3.Coords, EltTy.bits .f32 = 32 ∨ (Rect.block (s := S40) S40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S50000x40.size a
  hwx3_2 : ∀ i : grid3.Coords, EltTy.bits .f32 = 32 ∨ (Rect.block (s := S50000x40) S5000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x40.size a ≤ S50000x40.size a
  hwx4_0 : ∀ i : grid4.Coords, EltTy.bits .f32 = 32 ∨ (Rect.block (s := S50000x40) S5000x40.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S40x40.size a ≤ S40x40.size a
  hwx4_1 : ∀ i : grid4.Coords, EltTy.bits .f32 = 32 ∨ (Rect.block (s := S40x40) S40x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S40.size a ≤ S40.size a
  hwx4_2 : ∀ i : grid4.Coords, EltTy.bits .f32 = 32 ∨ (Rect.block (s := S40) S40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x40.size a ≤ S50000x40.size a
  hwx4_3 : ∀ i : grid4.Coords, EltTy.bits .f32 = 32 ∨ (Rect.block (s := S50000x40) S5000x40.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf
def dot_S5000x40_S40x40_S5000x40_1_0_0_1_n_n : DotDims S5000x40 S40x40 S5000x40 where
  lhsContracting := [1]
  rhsContracting := [0]
  lhsNonContracting := [0]
  rhsNonContracting := [1]
  lhsBatch := []
  rhsBatch := []
  wf := dot_S5000x40_S40x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v62) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S40x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S5000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S40x40 : Shape := ⟨2, ![40, 40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 144
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x40, .f32⟩
  | 5 => ⟨S40, .f32⟩
  | 6 => ⟨S40x40, .f32⟩
  | 7 => ⟨S40, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000, .i32⟩
  | 75 => ⟨S1x800000, .i32⟩
  | 76 => ⟨S800000, .i32⟩
  | 77 => ⟨S850000, .i32⟩
  | 78 => ⟨S1x800000, .i32⟩
  | 79 => ⟨S800000, .i32⟩
  | 80 => ⟨S850000, .i32⟩
  | 81 => ⟨S_, .f32⟩
  | 82 => ⟨S850000, .f32⟩
  | 83 => ⟨S_, .f32⟩
  | 84 => ⟨S50000, .f32⟩
  | 85 => ⟨S850000x1, .i32⟩
  | 86 => ⟨S50000, .f32⟩
  | 87 => ⟨S_, .f32⟩
  | 88 => ⟨S50000, .f32⟩
  | 89 => ⟨S50000, .i1⟩
  | 90 => ⟨S_, .f32⟩
  | 91 => ⟨S50000, .f32⟩
  | 92 => ⟨S50000, .f32⟩
  | 93 => ⟨S50000, .f32⟩
  | 94 => ⟨S_, .f32⟩
  | 95 => ⟨S_, .f32⟩
  | 96 => ⟨S50000, .f32⟩
  | 97 => ⟨S50000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000, .f32⟩
  | 116 => ⟨S850000, .f32⟩
  | 117 => ⟨S50000x40, .f32⟩
  | 118 => ⟨S_, .i32⟩
  | 119 => ⟨S850000, .i32⟩
  | 120 => ⟨S850000, .i1⟩
  | 121 => ⟨S_, .i32⟩
  | 122 => ⟨S850000, .i32⟩
  | 123 => ⟨S850000, .i32⟩
  | 124 => ⟨S850000, .i32⟩
  | 125 => ⟨S850000x1, .i32⟩
  | 126 => ⟨S850000x40, .f32⟩
  | 127 => ⟨S850000x1, .f32⟩
  | _ => ⟨S50000x128, .f32⟩

abbrev hbmTy0_1 (i : Nat) : BufTy := match i % 128 with
  | 0 => ⟨S850000x40, .f32⟩
  | 1 => ⟨S850000x40, .f32⟩
  | 2 => ⟨S_, .f32⟩
  | 3 => ⟨S50000x40, .f32⟩
  | 4 => ⟨S850000x1, .i32⟩
  | 5 => ⟨S50000x40, .f32⟩
  | 6 => ⟨S1x40, .f32⟩
  | 7 => ⟨S50000x40, .f32⟩
  | 8 => ⟨S50000x40, .f32⟩
  | 9 => ⟨S_, .f32⟩
  | 10 => ⟨S50000x40, .f32⟩
  | 11 => ⟨S50000x40, .f32⟩
  | 12 => ⟨S50000x40, .f32⟩
  | 13 => ⟨S1x40, .f32⟩
  | 14 => ⟨S50000x40, .f32⟩
  | 15 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_14 : Ref sig .tc := ⟨.hbm, 94, rfl⟩
abbrev main_call2_v0 : Ref sig .tc := ⟨.hbm, 95, rfl⟩
abbrev main_call2_v1 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_17 : Ref sig .tc := ⟨.hbm, 107, rfl⟩
abbrev main_v74 : Ref sig .tc := ⟨.hbm, 108, rfl⟩
abbrev main_v75 : Ref sig .tc := ⟨.hbm, 109, rfl⟩
abbrev main_c_18 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_19 : Ref sig .tc := ⟨.hbm, 118, rfl⟩
abbrev main_v83 : Ref sig .tc := ⟨.hbm, 119, rfl⟩
abbrev main_v84 : Ref sig .tc := ⟨.hbm, 120, rfl⟩
abbrev main_c_20 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_21 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_call3_cst : Ref sig .tc := ⟨.hbm, 137, rfl⟩
abbrev main_call3_v0 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  dot_S50000x40_S40x40_S50000x40_1_0_0_1_n_n_wf : DotDims.WF S50000x40 S40x40 S50000x40 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf
def dot_S50000x40_S40x40_S50000x40_1_0_0_1_n_n : DotDims S50000x40 S40x40 S50000x40 where
  lhsContracting := [1]
  rhsContracting := [0]
  lhsNonContracting := [0]
  rhsNonContracting := [1]
  lhsBatch := []
  rhsBatch := []
  wf := dot_S50000x40_S40x40_S50000x40_1_0_0_1_n_n_wf

class Facts : Prop extends Facts₀ where

variable [Facts]
-- ==== Proof.Spec.lean ====
/-
  The whole-array operations both programs compute, named once.

  A graph-convolution layer is: a dense product of the node features with a weight matrix; a message pass that
  gathers each edge's source row, scales it by the edge's symmetric normalisation coefficient and adds it into the
  edge's target row; then a bias added to every row and a clamp at zero. The network is two such layers followed by a
  dense product plus bias. Every operation is spelt exactly as the reference spells it on whole arrays, so that the
  reference's own stages unfold to these by definition; the kernel computes the dense products and the bias-and-clamp
  steps in blocks of 5000 rows, and the message pass with the same whole-array operations.
-/
import proofs.«117765_j24180665876563_1_alg».proof.ReferenceIdeal
import proofs.«117765_j24180665876563_1_alg».proof.Proof.Gen.ReferenceIdeal

noncomputable section

namespace Cert.Spec

open Cert.ReferenceIdeal Cert.ReferenceIdeal.Gen Idealize.ShloMosaic

variable {F : FTy → Type} [FloatOps F]

/-- Node features times the first layer's weights: row `r`, column `j` is the sum over `k` of `x r k * w k j`. -/
def mm1 (x : (⟨S50000x128, .f32⟩ : BufTy).Contents (Elt F)) (w : (⟨S128x128, .f32⟩ : BufTy).Contents (Elt F)) :
    (⟨S50000x128, .f32⟩ : BufTy).Contents (Elt F) :=
  Host.dotGeneral dot_S50000x128_S128x128_S50000x128_1_0_0_1_n_n none x w

/-- Hidden features times the second layer's weights. -/
def mm2 (h : (⟨S50000x128, .f32⟩ : BufTy).Contents (Elt F)) (w : (⟨S128x40, .f32⟩ : BufTy).Contents (Elt F)) :
    (⟨S50000x40, .f32⟩ : BufTy).Contents (Elt F) :=
  Host.dotGeneral dot_S50000x128_S128x40_S50000x40_1_0_0_1_n_n none h w

/-- The head's product. -/
def mm3 (h : (⟨S50000x40, .f32⟩ : BufTy).Contents (Elt F)) (w : (⟨S40x40, .f32⟩ : BufTy).Contents (Elt F)) :
    (⟨S50000x40, .f32⟩ : BufTy).Contents (Elt F) :=
  Host.dotGeneral dot_S50000x40_S40x40_S50000x40_1_0_0_1_n_n none h w

/-- A bias vector repeated down the 50000 rows (128 columns). -/
def rowBias128 (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)

/-- A bias vector repeated down the 50000 rows (40 columns). -/
def rowBias40 (b : (⟨S40, .f32⟩ : BufTy).Contents (Elt F)) : (⟨S50000x40, .f32⟩ : BufTy).Contents (Elt F) :=
  broadcastInDim S50000x40 ![0, 1] bcast_S1x40_S50000x40_0_1 (broadcastInDim S1x40 ![1] bcast_S40_S1x40_1 b)

/-- The zero array the clamp compares with, and the message pass accumulates into (128 columns). -/
def zeros128 : (⟨S50000x128, .f32⟩ : BufTy).Contents (Elt F) :=
  broadcastInDim S50000x128 ![] bcast_S_S50000x128 (constant S_ .f32 0x00000000#32)

/-- The same with 40 columns. -/
def zeros40 : (⟨S50000x40, .f32⟩ : BufTy).Contents (Elt F) :=
  broadcastInDim S50000x40 ![] bcast_S_S50000x40 (constant S_ .f32 0x00000000#32)

/-- Bias added to every row, then the maximum with zero (128 columns). -/
def biasRelu128 (a : (⟨S50000x128, .f32⟩ : BufTy).Contents (Elt F)) (b : (⟨S128, .f32⟩ : BufTy).Contents (Elt F)) :
    (⟨S50000x128, .f32⟩ : BufTy).Contents (Elt F) :=
  maximumf (addf a (rowBias128 b)) zeros128

/-- Bias added to every row, then the maximum with zero (40 columns). -/
def biasRelu40 (a : (⟨S50000x40, .f32⟩ : BufTy).Contents (Elt F)) (b : (⟨S40, .f32⟩ : BufTy).Contents (Elt F)) :
    (⟨S50000x40, .f32⟩ : BufTy).Contents (Elt F) :=
  maximumf (addf a (rowBias40 b)) zeros40

/-- The head: product plus bias on every row. -/
def head (h : (⟨S50000x40, .f32⟩ : BufTy).Contents (Elt F)) (w : (⟨S40x40, .f32⟩ : BufTy).Contents (Elt F))
    (b : (⟨S40, .f32⟩ : BufTy).Contents (Elt F)) : (⟨S50000x40, .f32⟩ : BufTy).Contents (Elt F) :=
  addf (mm3 h w) (rowBias40 b)

/-- A node index made non-negative the way array indexing does it: a negative index counts from the end. -/
def wrapIdx (v : (⟨S850000, .i32⟩ : BufTy).Contents (Elt F)) : (⟨S850000, .i32⟩ : BufTy).Contents (Elt F) :=
  select (cmpi .slt v (broadcastInDim S850000 ![] bcast_S_S850000 (constantI S_ 32 0#32)))
    (addi v (broadcastInDim S850000 ![] bcast_S_S850000 (constantI S_ 32 50000#32))) v

/-- The message pass on 128 columns: for each of the 850000 edges (self loops included) the source row of `h`,
    scaled by the edge's coefficient `n`, added into the target row. `s` and `d` are the edges' sources and targets. -/
def agg128 (h : (⟨S50000x128, .f32⟩ : BufTy).Contents (Elt F)) (s d : (⟨S850000, .i32⟩ : BufTy).Contents (Elt F))
    (n : (⟨S850000, .f32⟩ : BufTy).Contents (Elt F)) : (⟨S50000x128, .f32⟩ : BufTy).Contents (Elt F) :=
  Host.scatterAdd scatter_S50000x128_S850000x1_S850000x128_1_0_0_1 zeros128
    (broadcastInDim S850000x1 ![0] bcast_S850000_S850000x1_0 d)
    (mulf (Host.gather gather_S50000x128_S850000x1_S850000x128_1_0_n_n_0_1_1128 h
        (broadcastInDim S850000x1 ![0] bcast_S850000_S850000x1_0 (wrapIdx s)))
      (broadcastInDim S850000x128 ![0, 1] bcast_S850000x1_S850000x128_0_1
        (broadcastInDim S850000x1 ![0] bcast_S850000_S850000x1_0 n)))

/-- The message pass on 40 columns. -/
def agg40 (h : (⟨S50000x40, .f32⟩ : BufTy).Contents (Elt F)) (s d : (⟨S850000, .i32⟩ : BufTy).Contents (Elt F))
    (n : (⟨S850000, .f32⟩ : BufTy).Contents (Elt F)) : (⟨S50000x40, .f32⟩ : BufTy).Contents (Elt F) :=
  Host.scatterAdd scatter_S50000x40_S850000x1_S850000x40_1_0_0_1 zeros40
    (broadcastInDim S850000x1 ![0] bcast_S850000_S850000x1_0 d)
    (mulf (Host.gather gather_S50000x40_S850000x1_S850000x40_1_0_n_n_0_1_140 h
        (broadcastInDim S850000x1 ![0] bcast_S850000_S850000x1_0 (wrapIdx s)))
      (broadcastInDim S850000x40 ![0, 1] bcast_S850000x1_S850000x40_0_1
        (broadcastInDim S850000x1 ![0] bcast_S850000_S850000x1_0 n)))

/-- The second layer's output, which is the network's first result. -/
def hidden2 (x : (⟨S50000x128, .f32⟩ : BufTy).Contents (Elt F)) (s d : (⟨S850000, .i32⟩ : BufTy).Contents (Elt F))
    (n : (⟨S850000, .f32⟩ : BufTy).Contents (Elt F)) (w1 : (⟨S128x128, .f32⟩ : BufTy).Contents (Elt F))
    (b1 : (⟨S128, .f32⟩ : BufTy).Contents (Elt F)) (w2 : (⟨S128x40, .f32⟩ : BufTy).Contents (Elt F))
    (b2 : (⟨S40, .f32⟩ : BufTy).Contents (Elt F)) : (⟨S50000x40, .f32⟩ : BufTy).Contents (Elt F) :=
  biasRelu40 (agg40 (mm2 (biasRelu128 (agg128 (mm1 x w1) s d n) b1) w2) s d n) b2

end Cert.Spec

end
-- ==== Proof.KernelHost.lean ====
/-
  What the host operations between the kernel regions leave in the buffers the regions and the later stretches read.

  Before the first region the program builds, from the edge index array alone, the edges' source and target lists
  (self loops appended) and their normalisation coefficients: the very operations the reference performs, so the three
  buffers hold the reference's own first-layer stages. Between a dense product and the bias-and-clamp step that
  follows it, the stretch is the message pass: gather the sources' rows, scale by the coefficients, add into the
  targets' rows. No stretch and no region writes an argument array, an edge list or the coefficients after they are
  made, so each of them is read back unchanged at every later boundary.
-/
import proofs.«117765_j24180665876563_1_alg».proof.Proof.Gen.KernelIdeal.Frame
import proofs.«117765_j24180665876563_1_alg».proof.Proof.Spec
import proofs.«117765_j24180665876563_1_alg».proof.Proof.RefRead
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first region: the arguments as launched, the edge lists and the coefficients -/

theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl
theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl
theorem W3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

/-- The edges' sources: the first row of the edge index array followed by every node's own index. -/
theorem W3_src (c : Dev nD) : W3 m ρ c (Proc.devRef .tc main_v3)
    = Cert.ReferenceIdeal.ReadP.val_main_v3 (F := F) (m ((c : Thread nD τ).loc main_arg1)) := by
  show StableHlo.after hostOps0_2 (StableHlo.after hostOps0_1 (StableHlo.after hostOps0 (W0 m ρ c))) (Proc.devRef .tc main_v3) = _
  after_results_simp <;> rfl

/-- The edges' targets: the second row of the edge index array followed by every node's own index. -/
theorem W3_dst (c : Dev nD) : W3 m ρ c (Proc.devRef .tc main_v6)
    = Cert.ReferenceIdeal.ReadP.val_main_v6 (F := F) (m ((c : Thread nD τ).loc main_arg1)) := by
  show StableHlo.after hostOps0_2 (StableHlo.after hostOps0_1 (StableHlo.after hostOps0 (W0 m ρ c))) (Proc.devRef .tc main_v6) = _
  after_results_simp <;> rfl

/-- The edges' coefficients: the inverse square roots of the two endpoints' degrees, multiplied. -/
theorem W3_coeff (c : Dev nD) : W3 m ρ c (Proc.devRef .tc main_v31)
    = Cert.ReferenceIdeal.ReadP.val_main_v31 (F := F) (m ((c : Thread nD τ).loc main_arg1)) := by
  show StableHlo.after hostOps0_2 (StableHlo.after hostOps0_1 (StableHlo.after hostOps0 (W0 m ρ c))) (Proc.devRef .tc main_v31) = _
  after_results_simp <;> rfl

/-! ## The first message pass, and what it leaves alone -/

/-- After the first dense product: gather, scale, add into the targets' rows. -/
theorem W5_agg (c : Dev nD) : W5 m ρ c (Proc.devRef .tc main_v46)
    = Cert.Spec.agg128 (F := F) (W4 m ρ c (Proc.devRef .tc main_v33)) (W4 m ρ c (Proc.devRef .tc main_v3)) (W4 m ρ c (Proc.devRef .tc main_v6))
        (W4 m ρ c (Proc.devRef .tc main_v31)) := by
  show StableHlo.after hostOps1 (W4 m ρ c) (Proc.devRef .tc main_v46) = _
  after_results_simp
  rfl

theorem W5_keep_arg3 (c : Dev nD) : W5 m ρ c (Proc.devRef .tc main_arg3) = W4 m ρ c (Proc.devRef .tc main_arg3) := by
  show StableHlo.after hostOps1 (W4 m ρ c) (Proc.devRef .tc main_arg3) = _
  after_results_simp
theorem W5_keep_arg4 (c : Dev nD) : W5 m ρ c (Proc.devRef .tc main_arg4) = W4 m ρ c (Proc.devRef .tc main_arg4) := by
  show StableHlo.after hostOps1 (W4 m ρ c) (Proc.devRef .tc main_arg4) = _
  after_results_simp
theorem W5_keep_arg5 (c : Dev nD) : W5 m ρ c (Proc.devRef .tc main_arg5) = W4 m ρ c (Proc.devRef .tc main_arg5) := by
  show StableHlo.after hostOps1 (W4 m ρ c) (Proc.devRef .tc main_arg5) = _
  after_results_simp
theorem W5_keep_arg6 (c : Dev nD) : W5 m ρ c (Proc.devRef .tc main_arg6) = W4 m ρ c (Proc.devRef .tc main_arg6) := by
  show StableHlo.after hostOps1 (W4 m ρ c) (Proc.devRef .tc main_arg6) = _
  after_results_simp
theorem W5_keep_arg7 (c : Dev nD) : W5 m ρ c (Proc.devRef .tc main_arg7) = W4 m ρ c (Proc.devRef .tc main_arg7) := by
  show StableHlo.after hostOps1 (W4 m ρ c) (Proc.devRef .tc main_arg7) = _
  after_results_simp
theorem W5_keep_v3 (c : Dev nD) : W5 m ρ c (Proc.devRef .tc main_v3) = W4 m ρ c (Proc.devRef .tc main_v3) := by
  show StableHlo.after hostOps1 (W4 m ρ c) (Proc.devRef .tc main_v3) = _
  after_results_simp
theorem W5_keep_v6 (c : Dev nD) : W5 m ρ c (Proc.devRef .tc main_v6) = W4 m ρ c (Proc.devRef .tc main_v6) := by
  show StableHlo.after hostOps1 (W4 m ρ c) (Proc.devRef .tc main_v6) = _
  after_results_simp
theorem W5_keep_v31 (c : Dev nD) : W5 m ρ c (Proc.devRef .tc main_v31) = W4 m ρ c (Proc.devRef .tc main_v31) := by
  show StableHlo.after hostOps1 (W4 m ρ c) (Proc.devRef .tc main_v31) = _
  after_results_simp

/-! ## The zero bias operand of the second product: nothing else is touched -/

theorem W7_keep_v47 (c : Dev nD) : W7 m ρ c (Proc.devRef .tc main_v47) = W6 m ρ c (Proc.devRef .tc main_v47) := by
  show StableHlo.after hostOps2 (W6 m ρ c) (Proc.devRef .tc main_v47) = _
  after_results_simp
theorem W7_keep_arg4 (c : Dev nD) : W7 m ρ c (Proc.devRef .tc main_arg4) = W6 m ρ c (Proc.devRef .tc main_arg4) := by
  show StableHlo.after hostOps2 (W6 m ρ c) (Proc.devRef .tc main_arg4) = _
  after_results_simp
theorem W7_keep_arg5 (c : Dev nD) : W7 m ρ c (Proc.devRef .tc main_arg5) = W6 m ρ c (Proc.devRef .tc main_arg5) := by
  show StableHlo.after hostOps2 (W6 m ρ c) (Proc.devRef .tc main_arg5) = _
  after_results_simp
theorem W7_keep_arg6 (c : Dev nD) : W7 m ρ c (Proc.devRef .tc main_arg6) = W6 m ρ c (Proc.devRef .tc main_arg6) := by
  show StableHlo.after hostOps2 (W6 m ρ c) (Proc.devRef .tc main_arg6) = _
  after_results_simp
theorem W7_keep_arg7 (c : Dev nD) : W7 m ρ c (Proc.devRef .tc main_arg7) = W6 m ρ c (Proc.devRef .tc main_arg7) := by
  show StableHlo.after hostOps2 (W6 m ρ c) (Proc.devRef .tc main_arg7) = _
  after_results_simp
theorem W7_keep_v3 (c : Dev nD) : W7 m ρ c (Proc.devRef .tc main_v3) = W6 m ρ c (Proc.devRef .tc main_v3) := by
  show StableHlo.after hostOps2 (W6 m ρ c) (Proc.devRef .tc main_v3) = _
  after_results_simp
theorem W7_keep_v6 (c : Dev nD) : W7 m ρ c (Proc.devRef .tc main_v6) = W6 m ρ c (Proc.devRef .tc main_v6) := by
  show StableHlo.after hostOps2 (W6 m ρ c) (Proc.devRef .tc main_v6) = _
  after_results_simp
theorem W7_keep_v31 (c : Dev nD) : W7 m ρ c (Proc.devRef .tc main_v31) = W6 m ρ c (Proc.devRef .tc main_v31) := by
  show StableHlo.after hostOps2 (W6 m ρ c) (Proc.devRef .tc main_v31) = _
  after_results_simp

/-! ## The second message pass -/

/-- After the second dense product: the same pass on 40 columns. -/
theorem W9_agg (c : Dev nD) : W9 m ρ c (Proc.devRef .tc main_v62)
    = Cert.Spec.agg40 (F := F) (W8 m ρ c (Proc.devRef .tc main_v49)) (W8 m ρ c (Proc.devRef .tc main_v3)) (W8 m ρ c (Proc.devRef .tc main_v6))
        (W8 m ρ c (Proc.devRef .tc main_v31)) := by
  show StableHlo.after hostOps3 (W8 m ρ c) (Proc.devRef .tc main_v62) = _
  after_results_simp
  rfl

theorem W9_keep_arg5 (c : Dev nD) : W9 m ρ c (Proc.devRef .tc main_arg5) = W8 m ρ c (Proc.devRef .tc main_arg5) := by
  show StableHlo.after hostOps3 (W8 m ρ c) (Proc.devRef .tc main_arg5) = _
  after_results_simp
theorem W9_keep_arg6 (c : Dev nD) : W9 m ρ c (Proc.devRef .tc main_arg6) = W8 m ρ c (Proc.devRef .tc main_arg6) := by
  show StableHlo.after hostOps3 (W8 m ρ c) (Proc.devRef .tc main_arg6) = _
  after_results_simp
theorem W9_keep_arg7 (c : Dev nD) : W9 m ρ c (Proc.devRef .tc main_arg7) = W8 m ρ c (Proc.devRef .tc main_arg7) := by
  show StableHlo.after hostOps3 (W8 m ρ c) (Proc.devRef .tc main_arg7) = _
  after_results_simp

/-! ## Each buffer read back to where it was made -/

theorem W4_src (c : Dev nD) : W4 m ρ c (Proc.devRef .tc main_v3) = Cert.ReferenceIdeal.ReadP.val_main_v3 (F := F) (m ((c : Thread nD τ).loc main_arg1)) :=
  (W4_of_ne m ρ c main_v3 (by decide)).trans (W3_src m ρ c)
theorem W8_src (c : Dev nD) : W8 m ρ c (Proc.devRef .tc main_v3) = Cert.ReferenceIdeal.ReadP.val_main_v3 (F := F) (m ((c : Thread nD τ).loc main_arg1)) :=
  (W8_of_ne m ρ c main_v3 (by decide)).trans ((W7_keep_v3 m ρ c).trans ((W6_of_ne m ρ c main_v3 (by decide)).trans ((W5_keep_v3 m ρ c).trans (W4_src m ρ c))))
theorem W4_dst (c : Dev nD) : W4 m ρ c (Proc.devRef .tc main_v6) = Cert.ReferenceIdeal.ReadP.val_main_v6 (F := F) (m ((c : Thread nD τ).loc main_arg1)) :=
  (W4_of_ne m ρ c main_v6 (by decide)).trans (W3_dst m ρ c)
theorem W8_dst (c : Dev nD) : W8 m ρ c (Proc.devRef .tc main_v6) = Cert.ReferenceIdeal.ReadP.val_main_v6 (F := F) (m ((c : Thread nD τ).loc main_arg1)) :=
  (W8_of_ne m ρ c main_v6 (by decide)).trans ((W7_keep_v6 m ρ c).trans ((W6_of_ne m ρ c main_v6 (by decide)).trans ((W5_keep_v6 m ρ c).trans (W4_dst m ρ c))))
theorem W4_coeff (c : Dev nD) : W4 m ρ c (Proc.devRef .tc main_v31) = Cert.ReferenceIdeal.ReadP.val_main_v31 (F := F) (m ((c : Thread nD τ).loc main_arg1)) :=
  (W4_of_ne m ρ c main_v31 (by decide)).trans (W3_coeff m ρ c)
theorem W8_coeff (c : Dev nD) : W8 m ρ c (Proc.devRef .tc main_v31) = Cert.ReferenceIdeal.ReadP.val_main_v31 (F := F) (m ((c : Thread nD τ).loc main_arg1)) :=
  (W8_of_ne m ρ c main_v31 (by decide)).trans ((W7_keep_v31 m ρ c).trans ((W6_of_ne m ρ c main_v31 (by decide)).trans ((W5_keep_v31 m ρ c).trans (W4_coeff m ρ c))))

theorem W5_arg3 (c : Dev nD) : W5 m ρ c (Proc.devRef .tc main_arg3) = m ((c : Thread nD τ).loc main_arg3) :=
  (W5_keep_arg3 m ρ c).trans ((W4_of_ne m ρ c main_arg3 (by decide)).trans (W3_arg3 m ρ c))
theorem W5_arg4 (c : Dev nD) : W5 m ρ c (Proc.devRef .tc main_arg4) = m ((c : Thread nD τ).loc main_arg4) :=
  (W5_keep_arg4 m ρ c).trans ((W4_of_ne m ρ c main_arg4 (by decide)).trans (W3_arg4 m ρ c))
theorem W7_arg4 (c : Dev nD) : W7 m ρ c (Proc.devRef .tc main_arg4) = m ((c : Thread nD τ).loc main_arg4) :=
  (W7_keep_arg4 m ρ c).trans ((W6_of_ne m ρ c main_arg4 (by decide)).trans (W5_arg4 m ρ c))
theorem W5_arg5 (c : Dev nD) : W5 m ρ c (Proc.devRef .tc main_arg5) = m ((c : Thread nD τ).loc main_arg5) :=
  (W5_keep_arg5 m ρ c).trans ((W4_of_ne m ρ c main_arg5 (by decide)).trans (W3_arg5 m ρ c))
theorem W7_arg5 (c : Dev nD) : W7 m ρ c (Proc.devRef .tc main_arg5) = m ((c : Thread nD τ).loc main_arg5) :=
  (W7_keep_arg5 m ρ c).trans ((W6_of_ne m ρ c main_arg5 (by decide)).trans (W5_arg5 m ρ c))
theorem W5_arg6 (c : Dev nD) : W5 m ρ c (Proc.devRef .tc main_arg6) = m ((c : Thread nD τ).loc main_arg6) :=
  (W5_keep_arg6 m ρ c).trans ((W4_of_ne m ρ c main_arg6 (by decide)).trans (W3_arg6 m ρ c))
theorem W7_arg6 (c : Dev nD) : W7 m ρ c (Proc.devRef .tc main_arg6) = m ((c : Thread nD τ).loc main_arg6) :=
  (W7_keep_arg6 m ρ c).trans ((W6_of_ne m ρ c main_arg6 (by decide)).trans (W5_arg6 m ρ c))
theorem W5_arg7 (c : Dev nD) : W5 m ρ c (Proc.devRef .tc main_arg7) = m ((c : Thread nD τ).loc main_arg7) :=
  (W5_keep_arg7 m ρ c).trans ((W4_of_ne m ρ c main_arg7 (by decide)).trans (W3_arg7 m ρ c))
theorem W7_arg7 (c : Dev nD) : W7 m ρ c (Proc.devRef .tc main_arg7) = m ((c : Thread nD τ).loc main_arg7) :=
  (W7_keep_arg7 m ρ c).trans ((W6_of_ne m ρ c main_arg7 (by decide)).trans (W5_arg7 m ρ c))
theorem W9_arg5 (c : Dev nD) : W9 m ρ c (Proc.devRef .tc main_arg5) = m ((c : Thread nD τ).loc main_arg5) :=
  (W9_keep_arg5 m ρ c).trans ((W8_of_ne m ρ c main_arg5 (by decide)).trans (W7_arg5 m ρ c))
theorem W9_arg6 (c : Dev nD) : W9 m ρ c (Proc.devRef .tc main_arg6) = m ((c : Thread nD τ).loc main_arg6) :=
  (W9_keep_arg6 m ρ c).trans ((W8_of_ne m ρ c main_arg6 (by decide)).trans (W7_arg6 m ρ c))
theorem W9_arg7 (c : Dev nD) : W9 m ρ c (Proc.devRef .tc main_arg7) = m ((c : Thread nD τ).loc main_arg7) :=
  (W9_keep_arg7 m ρ c).trans ((W8_of_ne m ρ c main_arg7 (by decide)).trans (W7_arg7 m ρ c))
theorem W10_arg6 (c : Dev nD) : W10 m ρ c (Proc.devRef .tc main_arg6) = m ((c : Thread nD τ).loc main_arg6) :=
  (W10_of_ne m ρ c main_arg6 (by decide)).trans (W9_arg6 m ρ c)
theorem W10_arg7 (c : Dev nD) : W10 m ρ c (Proc.devRef .tc main_arg7) = m ((c : Thread nD τ).loc main_arg7) :=
  (W10_of_ne m ρ c main_arg7 (by decide)).trans (W9_arg7 m ρ c)

/-- The last region reads the second layer's output through an input window and leaves it in place. -/
theorem W11_hidden (c : Dev nD) : W11 m ρ c (Proc.devRef .tc main_v63) = W10 m ρ c (Proc.devRef .tc main_v63) :=
  (W11_arr m ρ c 0).trans (((dat4 (V10 m ρ) c).arrAt_in 0 rfl _).trans (A_eq4 (V10 m ρ) c 0))

end Cert.KernelIdeal.Fold

end
-- ==== Proof.Region0.lean ====
/-
  The first dense product, computed in ten blocks of 5000 rows: after the region the output array holds the product
  of the whole feature array with the weight matrix. Block `t` of the output is rows `5000 t … 5000 t + 4999`; its
  entry `(p, j)` is the sum over `k` of `x (5000 t + p) k * w k j`, which is entry `(5000 t + p, j)` of the whole product.
-/
import proofs.«117765_j24180665876563_1_alg».proof.Proof.Gen.KernelIdeal.Frame
import proofs.«117765_j24180665876563_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat Cfg Window)

-- The TensorCore's buffer contents when the region is entered (any contents: the region's value is a function of
-- them).
variable (V : (c : Dev nD) → (b : Ref sig .tc) → Buf (Elt Ideal) ((c : Thread nD τ).loc b))

/-- The origin of a rank-2 block. -/
theorem hz : (![0, 0] : Fin 2 → Nat) = fun _ => 0 := funext fun a => by fin_cases a <;> rfl

/-! ## The block product at an index

The operands of a block's product at output index `(p, j)` and contraction index `k` are `(p, k)` and `(k, j)`: the four
coordinates, one lemma each. -/

theorem blk_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blk_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem blk_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem blk_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(p, j)` of a block's product: the rounding to the narrower format is the identity on ideal values and the
    accumulator starts at zero, so it is the sum over `k` of `x p k * w k j`. -/
theorem pay_apply (x : Vec Ideal S5000x128 .f32) (w : Vec Ideal S128x128 .f32) (p : Fin 5000) (q : Fin 128) :
    k0_pay1 x w (ValueIdx.ix2 p q) = ∑ k : Fin 128, x (ValueIdx.ix2 p k) * w (ValueIdx.ix2 k q) := by
  unfold k0_pay1
  show FloatOps.matmul (F := Ideal) (φ₁ := .bf16) (φ₂ := .bf16) dot_S5000x128_S128x128_S5000x128_1_0_0_1_n_n none (truncf .bf16 x bitsLt_bf16_f32) (truncf .bf16 w bitsLt_bf16_f32) (constant S5000x128 .f32 0x00000000#32) (ValueIdx.ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  rw [ValueIdx.truncf_apply, ValueIdx.truncf_apply]
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact blk_lhs_0 _ _
    | ⟨1, _⟩ => exact (blk_lhs_1 _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (blk_rhs_0 _ _).trans hk
    | ⟨1, _⟩ => exact blk_rhs_1 _ _)
  rw [el, er]

/-! ## The whole product at an index

The same four coordinates for the product of the whole arrays. -/

theorem whole_lhs_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem whole_lhs_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem whole_rhs_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem whole_rhs_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- Entry `(r, j)` of the whole product is the sum over `k` of `x r k * w k j`. -/
theorem mm1_apply (x : (⟨Cert.ReferenceIdeal.S50000x128, .f32⟩ : BufTy).Contents (Elt Ideal)) (w : (⟨Cert.ReferenceIdeal.S128x128, .f32⟩ : BufTy).Contents (Elt Ideal))
    (r : Fin 50000) (q : Fin 128) :
    Cert.Spec.mm1 (F := Ideal) x w (ValueIdx.ix2 r q) = ∑ k : Fin 128, x (ValueIdx.ix2 r k) * w (ValueIdx.ix2 k q) := by
  unfold Cert.Spec.mm1
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ValueIdx.ix2 r q) ((ValueIdx.contrEquiv1 Cert.ReferenceIdeal.dot_S50000x128_S128x128_S50000x128_1_0_0_1_n_n 128 rfl rfl).symm k) = ValueIdx.ix2 r k := funext fun a => Fin.ext (by
    match a with
    | ⟨0, _⟩ => exact whole_lhs_0 _ _
    | ⟨1, _⟩ => exact (whole_lhs_1 _ _).trans hk)
  have er : Cert.ReferenceIdeal.dot_S50000x128_S128x128_S50000x128_1_0_0_1_n_n.rhsIdx (ValueIdx.ix2 r q) ((ValueIdx.contrEquiv1 Cert.ReferenceIdeal.dot_S50000x128_S128x128_S50000x128_1_0_0_1_n_n 128 rfl rfl).symm k) = ValueIdx.ix2 k q := funext fun a => Fin.ext (by
    match a with
    | ⟨0, _⟩ => exact (whole_rhs_0 _ _).trans hk
    | ⟨1, _⟩ => exact whole_rhs_1 _ _)
  rw [el, er]

/-! ## From blocks to the array -/

/-- The block index maps, decided over the ten grid points: the row blocks of the input and of the output are block
    `t`, and every other block index is zero. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_3.index t (1 : Fin 2) = 0
    ∧ win0_3.index t (0 : Fin 2) ≤ 9 :=
  (by decide +kernel : ∀ t : Fin grid0.N, _)

/-- Every one of the ten row blocks is some point's. -/
theorem idx_onto : ∀ b : Fin 10, ∃ t : Fin cfg0.N, win0_3.index t = ![b.val, 0] :=
  (by decide +kernel : ∀ b : Fin 10, ∃ t : Fin grid0.N, win0_3.index t = ![b.val, 0])

/-- What point `t` writes back is block `t` of the whole product. -/
theorem flushed_eq (c : Dev nD) (t : Fin cfg0.N) :
    (dat0 (F := Ideal) V c).flushed 3 t
      = ((cfg0.win 3).blk t).view.read (Elt Ideal) (Cert.Spec.mm1 (F := Ideal) (V c main_arg0) (V c main_arg2)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ValueIdx.ix2 p q := ⟨j 0, j 1, ValueIdx.eq_ix2 j⟩
  show k0_pay1 (iblk0 V c 0 t) (iblk0 V c 1 t) (ValueIdx.ix2 p q)
      = Cert.Spec.mm1 (F := Ideal) (V c main_arg0) (V c main_arg2) (((cfg0.win 3).blk t).view.emb (ValueIdx.ix2 p q))
  have hp : p.val < 5000 := p.isLt
  have hrow : ((cfg0.win 3).blk t).view.emb (ValueIdx.ix2 p q)
      = ValueIdx.ix2 (⟨win0_3.index t (0 : Fin 2) * 5000 + p.val, by omega⟩ : Fin 50000) q := by
    funext a; apply Fin.ext
    match a with
    | ⟨0, _⟩ => show win0_3.index t (0 : Fin 2) * 5000 + 1 * p.val = win0_3.index t (0 : Fin 2) * 5000 + p.val; omega
    | ⟨1, _⟩ => show win0_3.index t (1 : Fin 2) * 128 + 1 * q.val = q.val; omega
  rw [hrow, mm1_apply, pay_apply]
  refine Finset.sum_congr rfl fun k _ => ?_
  have h0 : ((cfg0.win 0).blk t).view.emb (ValueIdx.ix2 p k)
      = ValueIdx.ix2 (⟨win0_3.index t (0 : Fin 2) * 5000 + p.val, by omega⟩ : Fin 50000) k := by
    funext a; apply Fin.ext
    match a with
    | ⟨0, _⟩ => show win0_0.index t (0 : Fin 2) * 5000 + 1 * p.val = win0_3.index t (0 : Fin 2) * 5000 + p.val; omega
    | ⟨1, _⟩ => show win0_0.index t (1 : Fin 2) * 128 + 1 * k.val = k.val; omega
  have h1 : ((cfg0.win 1).blk t).view.emb (ValueIdx.ix2 k q) = ValueIdx.ix2 k q := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  refine congrArg₂ (· * ·) ?_ ?_
  · show V c main_arg0 (((cfg0.win 0).blk t).view.emb (ValueIdx.ix2 p k)) = _
    rw [h0]
  · show V c main_arg2 (((cfg0.win 1).blk t).view.emb (ValueIdx.ix2 k q)) = _
    rw [h1]

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v33).slice (win0_3.rect t)).set ↔ _
  rw [View.set_slice_whole, Rect.mem_set_unit]
  exact Iff.rfl

/-- Row `r` lies in block `r / 5000`: the ten blocks cover the array. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the region the output array is the whole product. -/
theorem value (c : Dev nD) :
    (dat0 (F := Ideal) V c).arrAt 3 cfg0.N = Cert.Spec.mm1 (F := Ideal) (V c main_arg0) (V c main_arg2) :=
  (dat0 (F := Ideal) V c).arrAt_eq_of_cover 3 (Cert.Spec.mm1 (F := Ideal) (V c main_arg0) (V c main_arg2))
    (fun t _ => flushed_eq V c t) cover

end Cert.KernelIdeal.Region0

end
-- ==== Proof.Region1.lean ====
/-
  The first layer's bias-and-clamp step, computed in ten blocks of 5000 rows: after the region the output array holds
  `max (a + b, 0)` of the whole aggregated array `a` and the bias `b` repeated down the rows.
-/
import proofs.«117765_j24180665876563_1_alg».proof.Proof.Gen.KernelIdeal.Frame
import proofs.«117765_j24180665876563_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat Cfg Window)
open Idealize.ShloMosaic.ValueIdx

-- The TensorCore's buffer contents when the region is entered (any contents: the region's value is a function of
-- them).
variable (V : (c : Dev nD) → (b : Ref sig .tc) → Buf (Elt Ideal) ((c : Thread nD τ).loc b))

/-! ## The reference's whole-array function, read at an index -/

/-- The bias repeated down the rows reads, at row r and column q, the bias at q. -/
theorem rowBias128_apply (b : (⟨S128, .f32⟩ : BufTy).Contents (Elt Ideal)) (i : S50000x128.Idx) :
    Cert.Spec.rowBias128 (F := Ideal) b i = b (ix1 (i 1)) := by
  unfold Cert.Spec.rowBias128
  have e1 := broadcastInDim_apply (t := S50000x128) ![0, 1] Cert.ReferenceIdeal.Gen.bcast_S1x128_S50000x128_0_1
    (broadcastInDim S1x128 ![1] Cert.ReferenceIdeal.Gen.bcast_S128_S1x128_1 b) i (ix2 (0 : Fin 1) (i 1)) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  have e2 := broadcastInDim_apply (t := S1x128) ![1] Cert.ReferenceIdeal.Gen.bcast_S128_S1x128_1 b (ix2 (0 : Fin 1) (i 1)) (ix1 (i 1)) (fun a => match a with
      | ⟨0, _⟩ => by show (i 1).val = if (128 : Nat) = 1 then 0 else (i 1).val; rw [if_neg (by decide)])
  exact e1.trans e2

/-- The zero array reads the zero word's value everywhere. -/
theorem zeros128_apply (i : S50000x128.Idx) :
    Cert.Spec.zeros128 (F := Ideal) i = FloatOps.ofBits (F := Ideal) .f32 0x00000000#32 := by
  unfold Cert.Spec.zeros128
  exact broadcastInDim_apply (t := S50000x128) ![] Cert.ReferenceIdeal.Gen.bcast_S_S50000x128 (constant S_ .f32 0x00000000#32) i ix0 (fun a => a.elim0)

/-- Bias-and-clamp at an index: the maximum of (entry plus the column's bias) and zero. -/
theorem biasRelu128_apply (a : (⟨S50000x128, .f32⟩ : BufTy).Contents (Elt Ideal)) (b : (⟨S128, .f32⟩ : BufTy).Contents (Elt Ideal))
    (i : S50000x128.Idx) :
    Cert.Spec.biasRelu128 (F := Ideal) a b i
      = FloatOps.maximumf (F := Ideal) (FloatOps.addf (F := Ideal) (a i) (b (ix1 (i 1)))) (FloatOps.ofBits (F := Ideal) .f32 0x00000000#32) := by
  show FloatOps.maximumf (F := Ideal) (FloatOps.addf (F := Ideal) (a i) (Cert.Spec.rowBias128 (F := Ideal) b i)) (Cert.Spec.zeros128 (F := Ideal) i) = _
  rw [rowBias128_apply, zeros128_apply]

/-! ## The body's arithmetic, read at an index of the block -/

/-- One block's payload at row p, column q: the maximum of (the block's entry plus the bias at q) and zero. -/
theorem pay_apply (x0 : Vec Ideal S5000x128 .f32) (x1 : Vec Ideal S128 .f32) (p : Fin 5000) (q : Fin 128) :
    k1_pay1 x0 x1 (ix2 p q)
      = FloatOps.maximumf (F := Ideal) (FloatOps.addf (F := Ideal) (x0 (ix2 p q)) (x1 (ix1 q))) (FloatOps.ofBits (F := Ideal) .f32 0x00000000#32) := by
  unfold k1_pay1
  show FloatOps.maximumf (F := Ideal) (FloatOps.addf (F := Ideal) (shapeCast (α := Ideal .f32) S5000x128 x0 shapeCasts_S5000x128_S5000x128 (ix2 p q))
      (broadcastTo (α := Ideal .f32) S5000x128 (shapeCast (α := Ideal .f32) S1x128 x1 shapeCasts_S128_S1x128) broadcasts_S1x128_S5000x128 (ix2 p q)))
      (FloatOps.ofBits (F := Ideal) .f32 0x00000000#32) = _
  rw [shapeCast_self, broadcastTo_1b_ab_apply, shapeCast_a_1a_apply]

/-! ## What one grid point writes back -/

/-- The zero offsets of a whole-block access, rank 2 and rank 1. -/
theorem hz2 : (![0, 0] : Fin 2 → Nat) = fun _ => 0 := funext fun a => by fin_cases a <;> rfl
theorem hz1 : (![0] : Fin 1 → Nat) = fun _ => 0 := funext fun a => by fin_cases a <;> rfl

/-- The windows' block indices over the grid: the row windows sit at block row t, column block 0; the bias window at
    block 0. -/
theorem idx_facts : ∀ t : Fin cfg1.N, win1_0.index t (0 : Fin 2) = t.val ∧ win1_0.index t (1 : Fin 2) = 0
    ∧ win1_1.index t (0 : Fin 1) = 0 ∧ win1_2.index t (0 : Fin 2) = t.val ∧ win1_2.index t (1 : Fin 2) = 0 :=
  (by decide +kernel : ∀ t : Fin grid1.N, _)

/-- Point t writes back block t of the bias-and-clamp of the whole input array: row p of the block is row
    5000 t + p of the array, and the bias is read whole at every point. -/
theorem flushed_eq (c : Dev nD) (t : Fin cfg1.N) :
    (dat1 (F := Ideal) V c).flushed 2 t
      = ((cfg1.win 2).blk t).view.read (Elt Ideal) (Cert.Spec.biasRelu128 (F := Ideal) (V c main_v46) (V c main_arg3)) := by
  show (cfg1.win 2).cut (grid1.coords t) ((dat1 (F := Ideal) V c).after 2 t) = _
  rw [after1_2]
  unfold out1_2
  rw [View.canon_unit_zero hz2]
  simp only [View.ld_unit_zero (S := S5000x128) hz2, View.ld_unit_zero (S := S128) hz1]
  obtain ⟨e0, e1, e2, e3, e4⟩ := idx_facts t
  funext j
  revert j
  show ∀ j : S5000x128.Idx, k1_pay1 (iblk1 V c 0 t) (iblk1 V c 1 t) j
      = Cert.Spec.biasRelu128 (F := Ideal) (V c main_v46) (V c main_arg3) (((cfg1.win 2).blk t).view.emb j)
  intro j
  obtain ⟨p, q, rfl⟩ : ∃ (p : Fin 5000) (q : Fin 128), j = ix2 p q := ⟨j 0, j 1, eq_ix2 j⟩
  rw [pay_apply, biasRelu128_apply]
  show FloatOps.maximumf (F := Ideal) (FloatOps.addf (F := Ideal) (V c main_v46 (((cfg1.win 0).blk t).view.emb (ix2 p q)))
      (V c main_arg3 (((cfg1.win 1).blk t).view.emb (ix1 q)))) _ = _
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : ((cfg1.win 1).blk t).view.emb (ix1 q) = ix1 ((((cfg1.win 2).blk t).view.emb (ix2 p q)) 1) := by
    funext a; apply Fin.ext
    match a with
    | ⟨0, _⟩ => show win1_1.index t (0 : Fin 1) * 128 + 1 * q.val = win1_2.index t (1 : Fin 2) * 128 + 1 * q.val; omega
  rw [h0, h1]
  rfl

/-! ## The blocks tile the array -/

/-- An index of the array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

/-- Row r of the array lies in the block of point r / 5000, and every point writes its block back. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, (by omega : (i 0).val / 5000 < 10).trans_eq N_1.symm⟩, rfl⟩
  obtain ⟨-, -, -, e3, e4⟩ := idx_facts t
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-! ## The array after the region -/

/-- The ten blocks tile the 50000 rows, so the output array is the bias-and-clamp of the whole input array. -/
theorem value (c : Dev nD) :
    (dat1 (F := Ideal) V c).arrAt 2 cfg1.N = Cert.Spec.biasRelu128 (F := Ideal) (V c main_v46) (V c main_arg3) := by
  exact (dat1 (F := Ideal) V c).arrAt_eq_of_cover 2 (Cert.Spec.biasRelu128 (F := Ideal) (V c main_v46) (V c main_arg3))
    (fun t _ => flushed_eq V c t) cover

end Cert.KernelIdeal.Region1

end
-- ==== Proof.Region2.lean ====
/-
  The second dense product (128 → 40 columns), computed in ten blocks of 5000 rows: after the region the output array
  holds the product of the whole hidden-feature array with the second weight matrix. Block `t` of the output is rows
  `5000 t … 5000 t + 4999`; its entry `(p, j)` is the sum over `k` of `h (5000 t + p) k * w k j`, which is entry
  `(5000 t + p, j)` of the whole product.
-/
import proofs.«117765_j24180665876563_1_alg».proof.Proof.Gen.KernelIdeal.Frame
import proofs.«117765_j24180665876563_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat Cfg Window)

-- The TensorCore's buffer contents when the region is entered (any contents: the region's value is a function of
-- them).
variable (V : (c : Dev nD) → (b : Ref sig .tc) → Buf (Elt Ideal) ((c : Thread nD τ).loc b))

/-- The origin of a rank-2 block. -/
theorem hz : (![0, 0] : Fin 2 → Nat) = fun _ => 0 := funext fun a => by fin_cases a <;> rfl

/-! ## The block product at an index

The operands of a block's product at output index `(p, j)` and contraction index `k` are `(p, k)` and `(k, j)`: the four
coordinates, one lemma each. -/

theorem blk_lhs_0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem blk_lhs_1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
theorem blk_rhs_0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
theorem blk_rhs_1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- Entry `(p, j)` of a block's product: the cast to the same shape is the identity, the rounding to the narrower format is the identity on ideal values and the
    accumulator starts at zero, so it is the sum over `k` of `x p k * w k j`. -/
theorem pay_apply (x : Vec Ideal S5000x128 .f32) (w : Vec Ideal S128x40 .f32) (p : Fin 5000) (q : Fin 40) :
    k2_pay1 x w (ValueIdx.ix2 p q) = ∑ k : Fin 128, x (ValueIdx.ix2 p k) * w (ValueIdx.ix2 k q) := by
  unfold k2_pay1
  show FloatOps.matmul (F := Ideal) (φ₁ := .bf16) (φ₂ := .bf16) dot_S5000x128_S128x40_S5000x40_1_0_0_1_n_n none (truncf .bf16 (shapeCast S5000x128 x shapeCasts_S5000x128_S5000x128) bitsLt_bf16_f32) (truncf .bf16 w bitsLt_bf16_f32) (constant S5000x40 .f32 0x00000000#32) (ValueIdx.ix2 p q) = _
  rw [shapeCast_self]
  rw [Ideal.matmul_constant_zero_apply, ← Equiv.sum_comp (ValueIdx.contrEquiv1 dot_S5000x128_S128x40_S5000x40_1_0_0_1_n_n 128 rfl rfl).symm]
  refine Finset.sum_congr rfl fun k _ => ?_
  rw [ValueIdx.truncf_apply, ValueIdx.truncf_apply]
  have hk := ValueIdx.contrEquiv1_symm_val dot_S5000x128_S128x40_S5000x40_1_0_0_1_n_n 128 rfl rfl k
  have el : dot_S5000x128_S128x40_S5000x40_1_0_0_1_n_n.lhsIdx (ValueIdx.ix2 p q) ((ValueIdx.contrEquiv1 dot_S5000x128_S128x40_S5000x40_1_0_0_1_n_n 128 rfl rfl).symm k) = ValueIdx.ix2 p k := funext fun a => Fin.ext (by
    match a with
    | ⟨0, _⟩ => exact blk_lhs_0 _ _
    | ⟨1, _⟩ => exact (blk_lhs_1 _ _).trans hk)
  have er : dot_S5000x128_S128x40_S5000x40_1_0_0_1_n_n.rhsIdx (ValueIdx.ix2 p q) ((ValueIdx.contrEquiv1 dot_S5000x128_S128x40_S5000x40_1_0_0_1_n_n 128 rfl rfl).symm k) = ValueIdx.ix2 k q := funext fun a => Fin.ext (by
    match a with
    | ⟨0, _⟩ => exact (blk_rhs_0 _ _).trans hk
    | ⟨1, _⟩ => exact blk_rhs_1 _ _)
  rw [el, er]

/-! ## The whole product at an index

The same four coordinates for the product of the whole arrays. -/

theorem whole_lhs_0 (i : Cert.ReferenceIdeal.S50000x40.Idx) (q : Cert.ReferenceIdeal.dot_S50000x128_S128x40_S50000x40_1_0_0_1_n_n.contr.Idx) :
    (Cert.ReferenceIdeal.dot_S50000x128_S128x40_S50000x40_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x40_S50000x40_1_0_0_1_n_n.lhsBatch by decide), dif_pos (show (0 : Fin Cert.ReferenceIdeal.S50000x128.rank) ∈ Cert.ReferenceIdeal.dot_S50000x128_S128x40_S50000x40_1_0_0_1_n_n.lhsNonContracting by decide)]
  rfl
theorem whole_lhs_1 (i : Cert.ReferenceIdeal.S50000x40.Idx) (q : Cert.ReferenceIdeal.dot_S50000x128_S128x40_S50000x40_1_0_0_1_n_n.contr.Idx) :
    (Cert.ReferenceIdeal.dot_S50000x128_S128x40_S50000x40_1_0_0_1_n_n.lhsIdx i q 1).val = (q ⟨0, by decide⟩).val :=
  Cert.ReferenceIdeal.dot_S50000x128_S128x40_S50000x40_1_0_0_1_n_n.lhsIdx_val_of_single rfl i q
theorem whole_rhs_0 (i : Cert.ReferenceIdeal.S50000x40.Idx) (q : Cert.ReferenceIdeal.dot_S50000x128_S128x40_S50000x40_1_0_0_1_n_n.contr.Idx) :
    (Cert.ReferenceIdeal.dot_S50000x128_S128x40_S50000x40_1_0_0_1_n_n.rhsIdx i q 0).val = (q ⟨0, by decide⟩).val :=
  Cert.ReferenceIdeal.dot_S50000x128_S128x40_S50000x40_1_0_0_1_n_n.rhsIdx_val_of_single rfl i q
theorem whole_rhs_1 (i : Cert.ReferenceIdeal.S50000x40.Idx) (q : Cert.ReferenceIdeal.dot_S50000x128_S128x40_S50000x40_1_0_0_1_n_n.contr.Idx) :
    (Cert.ReferenceIdeal.dot_S50000x128_S128x40_S50000x40_1_0_0_1_n_n.rhsIdx i q 1).val = (i 1).val := by
  unfold DotDims.rhsIdx
  rw [dif_neg (show ¬(1 : Fin Cert.ReferenceIdeal.S128x40.rank) ∈ Cert.ReferenceIdeal.dot_S50000x128_S128x40_S50000x40_1_0_0_1_n_n.rhsBatch by decide), dif_pos (show (1 : Fin Cert.ReferenceIdeal.S128x40.rank) ∈ Cert.ReferenceIdeal.dot_S50000x128_S128x40_S50000x40_1_0_0_1_n_n.rhsNonContracting by decide)]
  rfl

/-- Entry `(r, j)` of the whole product is the sum over `k` of `x r k * w k j`. -/
theorem mm2_apply (x : (⟨Cert.ReferenceIdeal.S50000x128, .f32⟩ : BufTy).Contents (Elt Ideal)) (w : (⟨Cert.ReferenceIdeal.S128x40, .f32⟩ : BufTy).Contents (Elt Ideal))
    (r : Fin 50000) (q : Fin 40) :
    Cert.Spec.mm2 (F := Ideal) x w (ValueIdx.ix2 r q) = ∑ k : Fin 128, x (ValueIdx.ix2 r k) * w (ValueIdx.ix2 k q) := by
  unfold Cert.Spec.mm2
  simp only [Host.dotGeneral]
  rw [Ideal.dotGeneral_apply, ← Equiv.sum_comp (ValueIdx.contrEquiv1 Cert.ReferenceIdeal.dot_S50000x128_S128x40_S50000x40_1_0_0_1_n_n 128 rfl rfl).symm]
  refine Finset.sum_congr rfl fun k _ => ?_
  have hk := ValueIdx.contrEquiv1_symm_val Cert.ReferenceIdeal.dot_S50000x128_S128x40_S50000x40_1_0_0_1_n_n 128 rfl rfl k
  have el : Cert.ReferenceIdeal.dot_S50000x128_S128x40_S50000x40_1_0_0_1_n_n.lhsIdx (ValueIdx.ix2 r q) ((ValueIdx.contrEquiv1 Cert.ReferenceIdeal.dot_S50000x128_S128x40_S50000x40_1_0_0_1_n_n 128 rfl rfl).symm k) = ValueIdx.ix2 r k := funext fun a => Fin.ext (by
    match a with
    | ⟨0, _⟩ => exact whole_lhs_0 _ _
    | ⟨1, _⟩ => exact (whole_lhs_1 _ _).trans hk)
  have er : Cert.ReferenceIdeal.dot_S50000x128_S128x40_S50000x40_1_0_0_1_n_n.rhsIdx (ValueIdx.ix2 r q) ((ValueIdx.contrEquiv1 Cert.ReferenceIdeal.dot_S50000x128_S128x40_S50000x40_1_0_0_1_n_n 128 rfl rfl).symm k) = ValueIdx.ix2 k q := funext fun a => Fin.ext (by
    match a with
    | ⟨0, _⟩ => exact (whole_rhs_0 _ _).trans hk
    | ⟨1, _⟩ => exact whole_rhs_1 _ _)
  rw [el, er]

/-! ## From blocks to the array -/

/-- The block index maps, decided over the ten grid points: the row blocks of the input and of the output are block
    `t`, and every other block index is zero. -/
theorem idx_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_3.index t (1 : Fin 2) = 0
    ∧ win2_3.index t (0 : Fin 2) ≤ 9 :=
  (by decide +kernel : ∀ t : Fin grid2.N, _)

/-- Every one of the ten row blocks is some point's. -/
theorem idx_onto : ∀ b : Fin 10, ∃ t : Fin cfg2.N, win2_3.index t = ![b.val, 0] :=
  (by decide +kernel : ∀ b : Fin 10, ∃ t : Fin grid2.N, win2_3.index t = ![b.val, 0])

/-- What point `t` writes back is block `t` of the whole product. -/
theorem flushed_eq (c : Dev nD) (t : Fin cfg2.N) :
    (dat2 (F := Ideal) V c).flushed 3 t
      = ((cfg2.win 3).blk t).view.read (Elt Ideal) (Cert.Spec.mm2 (F := Ideal) (V c main_v47) (V c main_arg4)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x40) hz]
  obtain ⟨e0, e1, e2, e3, e4, e5⟩ := idx_facts t
  funext j
  obtain ⟨p, q, rfl⟩ : ∃ (p : Fin 5000) (q : Fin 40), j = ValueIdx.ix2 p q := ⟨j 0, j 1, ValueIdx.eq_ix2 j⟩
  show k2_pay1 (iblk2 V c 0 t) (iblk2 V c 1 t) (ValueIdx.ix2 p q)
      = Cert.Spec.mm2 (F := Ideal) (V c main_v47) (V c main_arg4) (((cfg2.win 3).blk t).view.emb (ValueIdx.ix2 p q))
  have hp : p.val < 5000 := p.isLt
  have hrow : ((cfg2.win 3).blk t).view.emb (ValueIdx.ix2 p q)
      = ValueIdx.ix2 (⟨win2_3.index t (0 : Fin 2) * 5000 + p.val, by omega⟩ : Fin 50000) q := by
    funext a; apply Fin.ext
    match a with
    | ⟨0, _⟩ => show win2_3.index t (0 : Fin 2) * 5000 + 1 * p.val = win2_3.index t (0 : Fin 2) * 5000 + p.val; omega
    | ⟨1, _⟩ => show win2_3.index t (1 : Fin 2) * 40 + 1 * q.val = q.val; omega
  rw [hrow, mm2_apply, pay_apply]
  refine Finset.sum_congr rfl fun k _ => ?_
  have h0 : ((cfg2.win 0).blk t).view.emb (ValueIdx.ix2 p k)
      = ValueIdx.ix2 (⟨win2_3.index t (0 : Fin 2) * 5000 + p.val, by omega⟩ : Fin 50000) k := by
    funext a; apply Fin.ext
    match a with
    | ⟨0, _⟩ => show win2_0.index t (0 : Fin 2) * 5000 + 1 * p.val = win2_3.index t (0 : Fin 2) * 5000 + p.val; omega
    | ⟨1, _⟩ => show win2_0.index t (1 : Fin 2) * 128 + 1 * k.val = k.val; omega
  have h1 : ((cfg2.win 1).blk t).view.emb (ValueIdx.ix2 k q) = ValueIdx.ix2 k q := by
    funext a; apply Fin.ext
    match a with
    | ⟨0, _⟩ => show win2_1.index t (0 : Fin 2) * 128 + 1 * k.val = k.val; omega
    | ⟨1, _⟩ => show win2_1.index t (1 : Fin 2) * 40 + 1 * q.val = q.val; omega
  refine congrArg₂ (· * ·) ?_ ?_
  · show V c main_v47 (((cfg2.win 0).blk t).view.emb (ValueIdx.ix2 p k)) = _
    rw [h0]
  · show V c main_arg4 (((cfg2.win 1).blk t).view.emb (ValueIdx.ix2 k q)) = _
    rw [h1]

/-- An index of the array is in point `t`'s block iff each coordinate is in the block's range on its axis. -/
theorem mem_blk (t : Fin cfg2.N) (i : S50000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v49).slice (win2_3.rect t)).set ↔ _
  rw [View.set_slice_whole, Rect.mem_set_unit]
  exact Iff.rfl

/-- Row `r` lies in block `r / 5000`: the ten blocks cover the array. -/
theorem cover (i : S50000x40.Idx) :
    ∃ t : Fin cfg2.N, (cfg2.win 3).flush t = true ∧ i ∈ ((cfg2.win 3).blk t).view.set := by
  have hi0 : (i 0).val < 50000 := (i 0).isLt
  have hi1 : (i 1).val < 40 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 40 ≤ (i 1).val ∧ (i 1).val < win2_3.index t (1 : Fin 2) * 40 + 40; omega

/-- After the region the output array is the whole product. -/
theorem value (c : Dev nD) :
    (dat2 (F := Ideal) V c).arrAt 3 cfg2.N = Cert.Spec.mm2 (F := Ideal) (V c main_v47) (V c main_arg4) :=
  (dat2 (F := Ideal) V c).arrAt_eq_of_cover 3 (Cert.Spec.mm2 (F := Ideal) (V c main_v47) (V c main_arg4))
    (fun t _ => flushed_eq V c t) cover

end Cert.KernelIdeal.Region2

end
-- ==== Proof.Region3.lean ====
/-
  The second layer's bias-and-clamp step (40 columns), computed in ten blocks of 5000 rows: after the region the
  output array holds `max (a + b, 0)` of the whole aggregated array `a` and the bias `b` repeated down the rows.
-/
import proofs.«117765_j24180665876563_1_alg».proof.Proof.Gen.KernelIdeal.Frame
import proofs.«117765_j24180665876563_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat Cfg Window)
open Idealize.ShloMosaic.ValueIdx

-- The TensorCore's buffer contents when the region is entered (any contents: the region's value is a function of
-- them).
variable (V : (c : Dev nD) → (b : Ref sig .tc) → Buf (Elt Ideal) ((c : Thread nD τ).loc b))

/-! ## The reference's whole-array function, read at an index -/

/-- The bias repeated down the rows reads, at row r and column q, the bias at q. -/
theorem rowBias40_apply (b : (⟨S40, .f32⟩ : BufTy).Contents (Elt Ideal)) (i : S50000x40.Idx) :
    Cert.Spec.rowBias40 (F := Ideal) b i = b (ix1 (i 1)) := by
  unfold Cert.Spec.rowBias40
  have e1 := broadcastInDim_apply (t := S50000x40) ![0, 1] Cert.ReferenceIdeal.Gen.bcast_S1x40_S50000x40_0_1
    (broadcastInDim S1x40 ![1] Cert.ReferenceIdeal.Gen.bcast_S40_S1x40_1 b) i (ix2 (0 : Fin 1) (i 1)) (fun a => match a with
      | ⟨0, _⟩ => by show 0 = if (1 : Nat) = 1 then 0 else (i 0).val; rw [if_pos rfl]
      | ⟨1, _⟩ => by show (i 1).val = if (40 : Nat) = 1 then 0 else (i 1).val; rw [if_neg (by decide)])
  have e2 := broadcastInDim_apply (t := S1x40) ![1] Cert.ReferenceIdeal.Gen.bcast_S40_S1x40_1 b (ix2 (0 : Fin 1) (i 1)) (ix1 (i 1)) (fun a => match a with
      | ⟨0, _⟩ => by show (i 1).val = if (40 : Nat) = 1 then 0 else (i 1).val; rw [if_neg (by decide)])
  exact e1.trans e2

/-- The zero array reads the zero word's value everywhere. -/
theorem zeros40_apply (i : S50000x40.Idx) :
    Cert.Spec.zeros40 (F := Ideal) i = FloatOps.ofBits (F := Ideal) .f32 0x00000000#32 := by
  unfold Cert.Spec.zeros40
  exact broadcastInDim_apply (t := S50000x40) ![] Cert.ReferenceIdeal.Gen.bcast_S_S50000x40 (constant S_ .f32 0x00000000#32) i ix0 (fun a => a.elim0)

/-- Bias-and-clamp at an index: the maximum of (entry plus the column's bias) and zero. -/
theorem biasRelu40_apply (a : (⟨S50000x40, .f32⟩ : BufTy).Contents (Elt Ideal)) (b : (⟨S40, .f32⟩ : BufTy).Contents (Elt Ideal))
    (i : S50000x40.Idx) :
    Cert.Spec.biasRelu40 (F := Ideal) a b i
      = FloatOps.maximumf (F := Ideal) (FloatOps.addf (F := Ideal) (a i) (b (ix1 (i 1)))) (FloatOps.ofBits (F := Ideal) .f32 0x00000000#32) := by
  show FloatOps.maximumf (F := Ideal) (FloatOps.addf (F := Ideal) (a i) (Cert.Spec.rowBias40 (F := Ideal) b i)) (Cert.Spec.zeros40 (F := Ideal) i) = _
  rw [rowBias40_apply, zeros40_apply]

/-! ## The body's arithmetic, read at an index of the block -/

/-- One block's payload at row p, column q: the maximum of (the block's entry plus the bias at q) and zero. -/
theorem pay_apply (x0 : Vec Ideal S5000x40 .f32) (x1 : Vec Ideal S40 .f32) (p : Fin 5000) (q : Fin 40) :
    k3_pay1 x0 x1 (ix2 p q)
      = FloatOps.maximumf (F := Ideal) (FloatOps.addf (F := Ideal) (x0 (ix2 p q)) (x1 (ix1 q))) (FloatOps.ofBits (F := Ideal) .f32 0x00000000#32) := by
  unfold k3_pay1
  show FloatOps.maximumf (F := Ideal) (FloatOps.addf (F := Ideal) (shapeCast (α := Ideal .f32) S5000x40 x0 shapeCasts_S5000x40_S5000x40 (ix2 p q))
      (broadcastTo (α := Ideal .f32) S5000x40 (shapeCast (α := Ideal .f32) S1x40 x1 shapeCasts_S40_S1x40) broadcasts_S1x40_S5000x40 (ix2 p q)))
      (FloatOps.ofBits (F := Ideal) .f32 0x00000000#32) = _
  rw [shapeCast_self, broadcastTo_1b_ab_apply, shapeCast_a_1a_apply]

/-! ## What one grid point writes back -/

/-- The zero offsets of a whole-block access, rank 2 and rank 1. -/
theorem hz2 : (![0, 0] : Fin 2 → Nat) = fun _ => 0 := funext fun a => by fin_cases a <;> rfl
theorem hz1 : (![0] : Fin 1 → Nat) = fun _ => 0 := funext fun a => by fin_cases a <;> rfl

/-- The windows' block indices over the grid: the row windows sit at block row t, column block 0; the bias window at
    block 0. -/
theorem idx_facts : ∀ t : Fin cfg3.N, win3_0.index t (0 : Fin 2) = t.val ∧ win3_0.index t (1 : Fin 2) = 0
    ∧ win3_1.index t (0 : Fin 1) = 0 ∧ win3_2.index t (0 : Fin 2) = t.val ∧ win3_2.index t (1 : Fin 2) = 0 :=
  (by decide +kernel : ∀ t : Fin grid3.N, _)

/-- Point t writes back block t of the bias-and-clamp of the whole input array: row p of the block is row
    5000 t + p of the array, and the bias is read whole at every point. -/
theorem flushed_eq (c : Dev nD) (t : Fin cfg3.N) :
    (dat3 (F := Ideal) V c).flushed 2 t
      = ((cfg3.win 2).blk t).view.read (Elt Ideal) (Cert.Spec.biasRelu40 (F := Ideal) (V c main_v62) (V c main_arg5)) := by
  show (cfg3.win 2).cut (grid3.coords t) ((dat3 (F := Ideal) V c).after 2 t) = _
  rw [after3_2]
  unfold out3_2
  rw [View.canon_unit_zero hz2]
  simp only [View.ld_unit_zero (S := S5000x40) hz2, View.ld_unit_zero (S := S40) hz1]
  obtain ⟨e0, e1, e2, e3, e4⟩ := idx_facts t
  funext j
  revert j
  show ∀ j : S5000x40.Idx, k3_pay1 (iblk3 V c 0 t) (iblk3 V c 1 t) j
      = Cert.Spec.biasRelu40 (F := Ideal) (V c main_v62) (V c main_arg5) (((cfg3.win 2).blk t).view.emb j)
  intro j
  obtain ⟨p, q, rfl⟩ : ∃ (p : Fin 5000) (q : Fin 40), j = ix2 p q := ⟨j 0, j 1, eq_ix2 j⟩
  rw [pay_apply, biasRelu40_apply]
  show FloatOps.maximumf (F := Ideal) (FloatOps.addf (F := Ideal) (V c main_v62 (((cfg3.win 0).blk t).view.emb (ix2 p q)))
      (V c main_arg5 (((cfg3.win 1).blk t).view.emb (ix1 q)))) _ = _
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 40 + 1 * q.val = win3_2.index t (1 : Fin 2) * 40 + 1 * q.val; omega
  have h1 : ((cfg3.win 1).blk t).view.emb (ix1 q) = ix1 ((((cfg3.win 2).blk t).view.emb (ix2 p q)) 1) := by
    funext a; apply Fin.ext
    match a with
    | ⟨0, _⟩ => show win3_1.index t (0 : Fin 1) * 40 + 1 * q.val = win3_2.index t (1 : Fin 2) * 40 + 1 * q.val; omega
  rw [h0, h1]
  rfl

/-! ## The blocks tile the array -/

/-- An index of the array is in point t's block iff each coordinate is in the block's range on its axis. -/
theorem mem_blk (t : Fin cfg3.N) (i : S50000x40.Idx) :
    i ∈ ((cfg3.win 2).blk t).view.set ↔ ∀ a : Fin 2, win3_2.index t a * S5000x40.size a ≤ (i a).val
      ∧ (i a).val < win3_2.index t a * S5000x40.size a + S5000x40.size a := by
  show i ∈ ((View.whole main_v63).slice (win3_2.rect t)).set ↔ _
  rw [View.set_slice_whole, Rect.mem_set_unit]
  exact Iff.rfl

/-- Row r of the array lies in the block of point r / 5000, and every point writes its block back. -/
theorem cover (i : S50000x40.Idx) :
    ∃ t : Fin cfg3.N, (cfg3.win 2).flush t = true ∧ i ∈ ((cfg3.win 2).blk t).view.set := by
  have hi0 : (i 0).val < 50000 := (i 0).isLt
  have hi1 : (i 1).val < 40 := (i 1).isLt
  obtain ⟨t, ht⟩ : ∃ t : Fin cfg3.N, t.val = (i 0).val / 5000 :=
    ⟨⟨(i 0).val / 5000, (by omega : (i 0).val / 5000 < 10).trans_eq N_3.symm⟩, rfl⟩
  obtain ⟨-, -, -, e3, e4⟩ := idx_facts t
  refine ⟨t, flush3_2 t, ?_⟩
  rw [mem_blk]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 40 ≤ (i 1).val ∧ (i 1).val < win3_2.index t (1 : Fin 2) * 40 + 40
    omega

/-! ## The array after the region -/

/-- The ten blocks tile the 50000 rows, so the output array is the bias-and-clamp of the whole input array. -/
theorem value (c : Dev nD) :
    (dat3 (F := Ideal) V c).arrAt 2 cfg3.N = Cert.Spec.biasRelu40 (F := Ideal) (V c main_v62) (V c main_arg5) := by
  exact (dat3 (F := Ideal) V c).arrAt_eq_of_cover 2 (Cert.Spec.biasRelu40 (F := Ideal) (V c main_v62) (V c main_arg5))
    (fun t _ => flushed_eq V c t) cover

end Cert.KernelIdeal.Region3

end
-- ==== Proof.Region4.lean ====
/-
  The head, computed in ten blocks of 5000 rows: after the region the output array holds the product of the whole
  second-layer output with the head's weight matrix, plus the bias on every row. Block `t` of the output is rows
  `5000 t … 5000 t + 4999`; its entry `(p, j)` is the sum over `k` of `h (5000 t + p) k * w k j` plus `b j`, which is
  entry `(5000 t + p, j)` of the whole array.
-/
import proofs.«117765_j24180665876563_1_alg».proof.Proof.Gen.KernelIdeal.Frame
import proofs.«117765_j24180665876563_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Cert.KernelIdeal Cert.KernelIdeal.Gen Idealize.ShloMosaic Idealize.ShloMosaic.TcCoe Idealize.SL.Sem
open Idealize.ShloMosaic.Pipeline (Dat Cfg Window)
open Idealize.ShloMosaic.ValueIdx

-- The TensorCore's buffer contents when the region is entered (any contents: the region's value is a function of
-- them).
variable (V : (c : Dev nD) → (b : Ref sig .tc) → Buf (Elt Ideal) ((c : Thread nD τ).loc b))

/-- The origin of a rank-2 block. -/
theorem hz : (![0, 0] : Fin 2 → Nat) = fun _ => 0 := funext fun a => by fin_cases a <;> rfl

/-- The origin of a rank-1 block. -/
theorem hz1 : (![0] : Fin 1 → Nat) = fun _ => 0 := funext fun a => by fin_cases a <;> rfl

/-! ## The block product at an index

The operands of a block's product at output index `(p, j)` and contraction index `k` are `(p, k)` and `(k, j)`: the four
coordinates, one lemma each. -/

theorem blk_lhs_0 (i : S5000x40.Idx) (q : dot_S5000x40_S40x40_S5000x40_1_0_0_1_n_n.contr.Idx) :
    (dot_S5000x40_S40x40_S5000x40_1_0_0_1_n_n.lhsIdx i q 0).val = (i 0).val := by
  unfold DotDims.lhsIdx
  rw [dif_neg (show ¬(0 : Fin S5000x40.rank) ∈ dot_S5000x40_S40x40_S5000x40_1_0_0_1_n_n.lhsBatch by decide), dif_pos (show (0 : Fin S5000x40.rank) ∈ dot_S5000x40_S40x40_S5000x40_1_0_0_1_n_n.lhsNonContracting by decide)]
  rfl
theorem blk_lhs_1 (i : S5000x40.Idx) (q : dot_S5000x40_S40x40_S5000x40_1_0_0_1_n_n.contr.Idx) :
    (dot_S5000x40_S40x40_S5000x40_1_0_0_1_n_n.lhsIdx i q 1).val = (q ⟨0, by decide⟩).val :=
  dot_S5000x40_S40x40_S5000x40_1_0_0_1_n_n.lhsIdx_val_of_single rfl i q
theorem blk_rhs_0 (i : S5000x40.Idx) (q : dot_S5000x40_S40x40_S5000x40_1_0_0_1_n_n.contr.Idx) :
    (dot_S5000x40_S40x40_S5000x40_1_0_0_1_n_n.rhsIdx i q 0).val = (q ⟨0, by decide⟩).val :=
  dot_S5000x40_S40x40_S5000x40_1_0_0_1_n_n.rhsIdx_val_of_single rfl i q
theorem blk_rhs_1 (i : S5000x40.Idx) (q : dot_S5000x40_S40x40_S5000x40_1_0_0_1_n_n.contr.Idx) :
    (dot_S5000x40_S40x40_S5000x40_1_0_0_1_n_n.rhsIdx i q 1).val = (i 1).val := by
  unfold DotDims.rhsIdx
  rw [dif_neg (show ¬(1 : Fin S40x40.rank) ∈ dot_S5000x40_S40x40_S5000x40_1_0_0_1_n_n.rhsBatch by decide), dif_pos (show (1 : Fin S40x40.rank) ∈ dot_S5000x40_S40x40_S5000x40_1_0_0_1_n_n.rhsNonContracting by decide)]
  rfl

/-- Entry `(p, j)` of what a block's body stores: the rounding to the narrower format is the identity on ideal values and
    the accumulator starts at zero, so the product's entry is the sum over `k` of `x p k * w k j`; the bias vector, made a
    one-row array and repeated down the block's rows, adds `b j`. -/
theorem pay_apply (x : Vec Ideal S5000x40 .f32) (w : Vec Ideal S40x40 .f32) (b : Vec Ideal S40 .f32) (p : Fin 5000) (q : Fin 40) :
    k4_pay1 x w b (ValueIdx.ix2 p q) = (∑ k : Fin 40, x (ValueIdx.ix2 p k) * w (ValueIdx.ix2 k q)) + b (ValueIdx.ix1 q) := by
  unfold k4_pay1
  show FloatOps.matmul (F := Ideal) (φ₁ := .bf16) (φ₂ := .bf16) dot_S5000x40_S40x40_S5000x40_1_0_0_1_n_n none (truncf .bf16 (shapeCast (α := Ideal .f32) S5000x40 x shapeCasts_S5000x40_S5000x40) bitsLt_bf16_f32) (truncf .bf16 w bitsLt_bf16_f32) (constant S5000x40 .f32 0x00000000#32) (ValueIdx.ix2 p q)
      + broadcastTo (α := Ideal .f32) S5000x40 (shapeCast (α := Ideal .f32) S1x40 b shapeCasts_S40_S1x40) broadcasts_S1x40_S5000x40 (ValueIdx.ix2 p q) = _
  rw [shapeCast_self, broadcastTo_1b_ab_apply, shapeCast_a_1a_apply]
  refine congrArg (· + b (ValueIdx.ix1 q)) ?_
  rw [Ideal.matmul_constant_zero_apply, ← Equiv.sum_comp (ValueIdx.contrEquiv1 dot_S5000x40_S40x40_S5000x40_1_0_0_1_n_n 40 rfl rfl).symm]
  refine Finset.sum_congr rfl fun k _ => ?_
  rw [ValueIdx.truncf_apply, ValueIdx.truncf_apply]
  have hk := ValueIdx.contrEquiv1_symm_val dot_S5000x40_S40x40_S5000x40_1_0_0_1_n_n 40 rfl rfl k
  have el : dot_S5000x40_S40x40_S5000x40_1_0_0_1_n_n.lhsIdx (ValueIdx.ix2 p q) ((ValueIdx.contrEquiv1 dot_S5000x40_S40x40_S5000x40_1_0_0_1_n_n 40 rfl rfl).symm k) = ValueIdx.ix2 p k := funext fun a => Fin.ext (by
    match a with
    | ⟨0, _⟩ => exact blk_lhs_0 _ _
    | ⟨1, _⟩ => exact (blk_lhs_1 _ _).trans hk)
  have er : dot_S5000x40_S40x40_S5000x40_1_0_0_1_n_n.rhsIdx (ValueIdx.ix2 p q) ((ValueIdx.contrEquiv1 dot_S5000x40_S40x40_S5000x40_1_0_0_1_n_n 40 rfl rfl).symm k) = ValueIdx.ix2 k q := funext fun a => Fin.ext (by
    match a with
    | ⟨0, _⟩ => exact (blk_rhs_0 _ _).trans hk
    | ⟨1, _⟩ => exact blk_rhs_1 _ _)
  rw [el, er]

/-! ## The whole product at an index

The same four coordinates for the product of the whole arrays. -/

theorem whole_lhs_0 (i : Cert.ReferenceIdeal.S50000x40.Idx) (q : Cert.ReferenceIdeal.dot_S50000x40_S40x40_S50000x40_1_0_0_1_n_n.contr.Idx) :
    (Cert.ReferenceIdeal.dot_S50000x40_S40x40_S50000x40_1_0_0_1_n_n.lhsIdx i q 0).val = (i 0).val := by
  unfold DotDims.lhsIdx
  rw [dif_neg (show ¬(0 : Fin Cert.ReferenceIdeal.S50000x40.rank) ∈ Cert.ReferenceIdeal.dot_S50000x40_S40x40_S50000x40_1_0_0_1_n_n.lhsBatch by decide), dif_pos (show (0 : Fin Cert.ReferenceIdeal.S50000x40.rank) ∈ Cert.ReferenceIdeal.dot_S50000x40_S40x40_S50000x40_1_0_0_1_n_n.lhsNonContracting by decide)]
  rfl
theorem whole_lhs_1 (i : Cert.ReferenceIdeal.S50000x40.Idx) (q : Cert.ReferenceIdeal.dot_S50000x40_S40x40_S50000x40_1_0_0_1_n_n.contr.Idx) :
    (Cert.ReferenceIdeal.dot_S50000x40_S40x40_S50000x40_1_0_0_1_n_n.lhsIdx i q 1).val = (q ⟨0, by decide⟩).val :=
  Cert.ReferenceIdeal.dot_S50000x40_S40x40_S50000x40_1_0_0_1_n_n.lhsIdx_val_of_single rfl i q
theorem whole_rhs_0 (i : Cert.ReferenceIdeal.S50000x40.Idx) (q : Cert.ReferenceIdeal.dot_S50000x40_S40x40_S50000x40_1_0_0_1_n_n.contr.Idx) :
    (Cert.ReferenceIdeal.dot_S50000x40_S40x40_S50000x40_1_0_0_1_n_n.rhsIdx i q 0).val = (q ⟨0, by decide⟩).val :=
  Cert.ReferenceIdeal.dot_S50000x40_S40x40_S50000x40_1_0_0_1_n_n.rhsIdx_val_of_single rfl i q
theorem whole_rhs_1 (i : Cert.ReferenceIdeal.S50000x40.Idx) (q : Cert.ReferenceIdeal.dot_S50000x40_S40x40_S50000x40_1_0_0_1_n_n.contr.Idx) :
    (Cert.ReferenceIdeal.dot_S50000x40_S40x40_S50000x40_1_0_0_1_n_n.rhsIdx i q 1).val = (i 1).val := by
  unfold DotDims.rhsIdx
  rw [dif_neg (show ¬(1 : Fin Cert.ReferenceIdeal.S40x40.rank) ∈ Cert.ReferenceIdeal.dot_S50000x40_S40x40_S50000x40_1_0_0_1_n_n.rhsBatch by decide), dif_pos (show (1 : Fin Cert.ReferenceIdeal.S40x40.rank) ∈ Cert.ReferenceIdeal.dot_S50000x40_S40x40_S50000x40_1_0_0_1_n_n.rhsNonContracting by decide)]
  rfl

/-- Entry `(r, j)` of the whole product is the sum over `k` of `x r k * w k j`. -/
theorem mm3_apply (x : (⟨Cert.ReferenceIdeal.S50000x40, .f32⟩ : BufTy).Contents (Elt Ideal)) (w : (⟨Cert.ReferenceIdeal.S40x40, .f32⟩ : BufTy).Contents (Elt Ideal))
    (r : Fin 50000) (q : Fin 40) :
    Cert.Spec.mm3 (F := Ideal) x w (ValueIdx.ix2 r q) = ∑ k : Fin 40, x (ValueIdx.ix2 r k) * w (ValueIdx.ix2 k q) := by
  unfold Cert.Spec.mm3
  simp only [Host.dotGeneral]
  rw [Ideal.dotGeneral_apply, ← Equiv.sum_comp (ValueIdx.contrEquiv1 Cert.ReferenceIdeal.dot_S50000x40_S40x40_S50000x40_1_0_0_1_n_n 40 rfl rfl).symm]
  refine Finset.sum_congr rfl fun k _ => ?_
  have hk := ValueIdx.contrEquiv1_symm_val Cert.ReferenceIdeal.dot_S50000x40_S40x40_S50000x40_1_0_0_1_n_n 40 rfl rfl k
  have el : Cert.ReferenceIdeal.dot_S50000x40_S40x40_S50000x40_1_0_0_1_n_n.lhsIdx (ValueIdx.ix2 r q) ((ValueIdx.contrEquiv1 Cert.ReferenceIdeal.dot_S50000x40_S40x40_S50000x40_1_0_0_1_n_n 40 rfl rfl).symm k) = ValueIdx.ix2 r k := funext fun a => Fin.ext (by
    match a with
    | ⟨0, _⟩ => exact whole_lhs_0 _ _
    | ⟨1, _⟩ => exact (whole_lhs_1 _ _).trans hk)
  have er : Cert.ReferenceIdeal.dot_S50000x40_S40x40_S50000x40_1_0_0_1_n_n.rhsIdx (ValueIdx.ix2 r q) ((ValueIdx.contrEquiv1 Cert.ReferenceIdeal.dot_S50000x40_S40x40_S50000x40_1_0_0_1_n_n 40 rfl rfl).symm k) = ValueIdx.ix2 k q := funext fun a => Fin.ext (by
    match a with
    | ⟨0, _⟩ => exact (whole_rhs_0 _ _).trans hk
    | ⟨1, _⟩ => exact whole_rhs_1 _ _)
  rw [el, er]

/-- The bias repeated down the rows reads, at row `r` and column `q`, the bias at `q`. -/
theorem rowBias40_apply (b : (⟨Cert.ReferenceIdeal.S40, .f32⟩ : BufTy).Contents (Elt Ideal)) (i : Cert.ReferenceIdeal.S50000x40.Idx) :
    Cert.Spec.rowBias40 (F := Ideal) b i = b (ix1 (i 1)) := by
  unfold Cert.Spec.rowBias40
  have e1 := broadcastInDim_apply (t := Cert.ReferenceIdeal.S50000x40) ![0, 1] Cert.ReferenceIdeal.Gen.bcast_S1x40_S50000x40_0_1
    (broadcastInDim Cert.ReferenceIdeal.S1x40 ![1] Cert.ReferenceIdeal.Gen.bcast_S40_S1x40_1 b) i (ix2 (0 : Fin 1) (i 1)) (fun a => match a with
      | ⟨0, _⟩ => by show 0 = if (1 : Nat) = 1 then 0 else (i 0).val; rw [if_pos rfl]
      | ⟨1, _⟩ => by show (i 1).val = if (40 : Nat) = 1 then 0 else (i 1).val; rw [if_neg (by decide)])
  have e2 := broadcastInDim_apply (t := Cert.ReferenceIdeal.S1x40) ![1] Cert.ReferenceIdeal.Gen.bcast_S40_S1x40_1 b (ix2 (0 : Fin 1) (i 1)) (ix1 (i 1)) (fun a => match a with
      | ⟨0, _⟩ => by show (i 1).val = if (40 : Nat) = 1 then 0 else (i 1).val; rw [if_neg (by decide)])
  exact e1.trans e2

/-- Entry `(r, j)` of the head: the product's entry plus the bias at `j`. -/
theorem head_apply (h : (⟨Cert.ReferenceIdeal.S50000x40, .f32⟩ : BufTy).Contents (Elt Ideal)) (w : (⟨Cert.ReferenceIdeal.S40x40, .f32⟩ : BufTy).Contents (Elt Ideal))
    (b : (⟨Cert.ReferenceIdeal.S40, .f32⟩ : BufTy).Contents (Elt Ideal)) (r : Fin 50000) (q : Fin 40) :
    Cert.Spec.head (F := Ideal) h w b (ValueIdx.ix2 r q) = (∑ k : Fin 40, h (ValueIdx.ix2 r k) * w (ValueIdx.ix2 k q)) + b (ValueIdx.ix1 q) := by
  show Cert.Spec.mm3 (F := Ideal) h w (ValueIdx.ix2 r q) + Cert.Spec.rowBias40 (F := Ideal) b (ValueIdx.ix2 r q) = _
  rw [mm3_apply, rowBias40_apply]

/-! ## From blocks to the array -/

/-- The block index maps, decided over the ten grid points: the row blocks of the input and of the output are block
    `t`, and every other block index, the bias's included, is zero. -/
theorem idx_facts : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_3.index t (1 : Fin 2) = 0
    ∧ win4_3.index t (0 : Fin 2) ≤ 9
    ∧ win4_2.index t (0 : Fin 1) = 0 :=
  (by decide +kernel : ∀ t : Fin grid4.N, _)

/-- Every one of the ten row blocks is some point's. -/
theorem idx_onto : ∀ b : Fin 10, ∃ t : Fin cfg4.N, win4_3.index t = ![b.val, 0] :=
  (by decide +kernel : ∀ b : Fin 10, ∃ t : Fin grid4.N, win4_3.index t = ![b.val, 0])

/-- What point `t` writes back is block `t` of the whole product plus bias. -/
theorem flushed_eq (c : Dev nD) (t : Fin cfg4.N) :
    (dat4 (F := Ideal) V c).flushed 3 t
      = ((cfg4.win 3).blk t).view.read (Elt Ideal) (Cert.Spec.head (F := Ideal) (V c main_v63) (V c main_arg6) (V c main_arg7)) := by
  show (cfg4.win 3).cut (grid4.coords t) ((dat4 V c).after 3 t) = _
  rw [after4_3]
  unfold out4_3
  rw [View.canon_unit_zero hz]
  simp only [View.ld_unit_zero (S := S5000x40) hz, View.ld_unit_zero (S := S40x40) hz, View.ld_unit_zero (S := S40) hz1]
  obtain ⟨e0, e1, e2, e3, e4, e5, e6⟩ := idx_facts t
  funext j
  obtain ⟨p, q, rfl⟩ : ∃ (p : Fin 5000) (q : Fin 40), j = ValueIdx.ix2 p q := ⟨j 0, j 1, ValueIdx.eq_ix2 j⟩
  show k4_pay1 (iblk4 V c 0 t) (iblk4 V c 1 t) (iblk4 V c 2 t) (ValueIdx.ix2 p q)
      = Cert.Spec.head (F := Ideal) (V c main_v63) (V c main_arg6) (V c main_arg7) (((cfg4.win 3).blk t).view.emb (ValueIdx.ix2 p q))
  have hp : p.val < 5000 := p.isLt
  have hrow : ((cfg4.win 3).blk t).view.emb (ValueIdx.ix2 p q)
      = ValueIdx.ix2 (⟨win4_3.index t (0 : Fin 2) * 5000 + p.val, by omega⟩ : Fin 50000) q := by
    funext a; apply Fin.ext
    match a with
    | ⟨0, _⟩ => show win4_3.index t (0 : Fin 2) * 5000 + 1 * p.val = win4_3.index t (0 : Fin 2) * 5000 + p.val; omega
    | ⟨1, _⟩ => show win4_3.index t (1 : Fin 2) * 40 + 1 * q.val = q.val; omega
  rw [hrow, head_apply, pay_apply]
  have h2 : ((cfg4.win 2).blk t).view.emb (ValueIdx.ix1 q) = ValueIdx.ix1 q := by
    funext a; apply Fin.ext
    match a with
    | ⟨0, _⟩ => show win4_2.index t (0 : Fin 1) * 40 + 1 * q.val = q.val; omega
  refine congrArg₂ (· + ·) (Finset.sum_congr rfl fun k _ => ?_) (by
    show V c main_arg7 (((cfg4.win 2).blk t).view.emb (ValueIdx.ix1 q)) = _
    rw [h2])
  have h0 : ((cfg4.win 0).blk t).view.emb (ValueIdx.ix2 p k)
      = ValueIdx.ix2 (⟨win4_3.index t (0 : Fin 2) * 5000 + p.val, by omega⟩ : Fin 50000) k := by
    funext a; apply Fin.ext
    match a with
    | ⟨0, _⟩ => show win4_0.index t (0 : Fin 2) * 5000 + 1 * p.val = win4_3.index t (0 : Fin 2) * 5000 + p.val; omega
    | ⟨1, _⟩ => show win4_0.index t (1 : Fin 2) * 40 + 1 * k.val = k.val; omega
  have h1 : ((cfg4.win 1).blk t).view.emb (ValueIdx.ix2 k q) = ValueIdx.ix2 k q := by
    funext a; apply Fin.ext
    match a with
    | ⟨0, _⟩ => show win4_1.index t (0 : Fin 2) * 40 + 1 * k.val = k.val; omega
    | ⟨1, _⟩ => show win4_1.index t (1 : Fin 2) * 40 + 1 * q.val = q.val; omega
  refine congrArg₂ (· * ·) ?_ ?_
  · show V c main_v63 (((cfg4.win 0).blk t).view.emb (ValueIdx.ix2 p k)) = _
    rw [h0]
  · show V c main_arg6 (((cfg4.win 1).blk t).view.emb (ValueIdx.ix2 k q)) = _
    rw [h1]

/-- An index of the array is in point `t`'s block iff each coordinate is in the block's range on its axis. -/
theorem mem_blk (t : Fin cfg4.N) (i : S50000x40.Idx) :
    i ∈ ((cfg4.win 3).blk t).view.set ↔ ∀ a : Fin 2, win4_3.index t a * S5000x40.size a ≤ (i a).val ∧ (i a).val < win4_3.index t a * S5000x40.size a + S5000x40.size a := by
  show i ∈ ((View.whole main_v64).slice (win4_3.rect t)).set ↔ _
  rw [View.set_slice_whole, Rect.mem_set_unit]
  exact Iff.rfl

/-- Row `r` lies in block `r / 5000`: the ten blocks cover the array. -/
theorem cover (i : S50000x40.Idx) :
    ∃ t : Fin cfg4.N, (cfg4.win 3).flush t = true ∧ i ∈ ((cfg4.win 3).blk t).view.set := by
  have hi0 : (i 0).val < 50000 := (i 0).isLt
  have hi1 : (i 1).val < 40 := (i 1).isLt
  obtain ⟨t, ht⟩ := idx_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 40 ≤ (i 1).val ∧ (i 1).val < win4_3.index t (1 : Fin 2) * 40 + 40; omega

/-- After the region the output array is the whole product plus bias. -/
theorem value (c : Dev nD) :
    (dat4 (F := Ideal) V c).arrAt 3 cfg4.N = Cert.Spec.head (F := Ideal) (V c main_v63) (V c main_arg6) (V c main_arg7) :=
  (dat4 (F := Ideal) V c).arrAt_eq_of_cover 3 (Cert.Spec.head (F := Ideal) (V c main_v63) (V c main_arg6) (V c main_arg7))
    (fun t _ => flushed_eq V c t) cover

end Cert.KernelIdeal.Region4

end
-- ==== Proof.KernelValue.lean ====
/-
  The kernel program's two results as functions of its arguments.

  Boundary by boundary: the first region's output is the dense product of the features with the first weights; the
  stretch after it is the message pass over the edge lists and coefficients made before the region; the second region
  adds the bias and clamps at zero, which completes the first layer. The third and fourth regions with the stretch
  between them are the second layer, whose output is the program's first result; the last region reads it through an
  input window, leaves it in place, and writes the head's product plus bias, the second result.
-/
import proofs.«117765_j24180665876563_1_alg».proof.Proof.KernelHost
import proofs.«117765_j24180665876563_1_alg».proof.Proof.Region0
import proofs.«117765_j24180665876563_1_alg».proof.Proof.Region1
import proofs.«117765_j24180665876563_1_alg».proof.Proof.Region2
import proofs.«117765_j24180665876563_1_alg».proof.Proof.Region3
import proofs.«117765_j24180665876563_1_alg».proof.Proof.Region4

set_option maxRecDepth 16384

noncomputable section

namespace Cert.KernelIdeal.Fold

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The first dense product, of the arguments as launched. -/
theorem W4_product (c : Dev nD) : W4 m ρ c (Proc.devRef .tc main_v33) = Cert.Spec.mm1 (F := Ideal) (m ((c : Thread nD τ).loc main_arg0)) (m ((c : Thread nD τ).loc main_arg2)) := by
  refine ((W4_arr m ρ c 3).trans (Region0.value (V3 m ρ) c)).trans ?_
  show Cert.Spec.mm1 (F := Ideal) (W3 m ρ c (Proc.devRef .tc main_arg0)) (W3 m ρ c (Proc.devRef .tc main_arg2)) = _
  rw [W3_arg0, W3_arg2]

/-- The first layer's output. -/
theorem W6_layer1 (c : Dev nD) : W6 m ρ c (Proc.devRef .tc main_v47)
    = Cert.Spec.biasRelu128 (F := Ideal) (Cert.Spec.agg128 (Cert.Spec.mm1 (m ((c : Thread nD τ).loc main_arg0)) (m ((c : Thread nD τ).loc main_arg2)))
        (Cert.ReferenceIdeal.ReadP.val_main_v3 (m ((c : Thread nD τ).loc main_arg1))) (Cert.ReferenceIdeal.ReadP.val_main_v6 (m ((c : Thread nD τ).loc main_arg1))) (Cert.ReferenceIdeal.ReadP.val_main_v31 (m ((c : Thread nD τ).loc main_arg1)))) (m ((c : Thread nD τ).loc main_arg3)) := by
  refine ((W6_arr m ρ c 2).trans (Region1.value (V5 m ρ) c)).trans ?_
  show Cert.Spec.biasRelu128 (F := Ideal) (W5 m ρ c (Proc.devRef .tc main_v46)) (W5 m ρ c (Proc.devRef .tc main_arg3)) = _
  rw [W5_agg, W5_arg3, W4_product, W4_src, W4_dst, W4_coeff]

/-- The second dense product, of the first layer's output. -/
theorem W8_product (c : Dev nD) : W8 m ρ c (Proc.devRef .tc main_v49)
    = Cert.Spec.mm2 (F := Ideal) (W6 m ρ c (Proc.devRef .tc main_v47)) (m ((c : Thread nD τ).loc main_arg4)) := by
  refine ((W8_arr m ρ c 3).trans (Region2.value (V7 m ρ) c)).trans ?_
  show Cert.Spec.mm2 (F := Ideal) (W7 m ρ c (Proc.devRef .tc main_v47)) (W7 m ρ c (Proc.devRef .tc main_arg4)) = _
  rw [W7_keep_v47, W7_arg4]

/-- The program's first result: the second layer's output. -/
theorem result0 (c : Dev nD) : W11 m ρ c (Proc.devRef .tc main_v63)
    = Cert.Spec.hidden2 (F := Ideal) (m ((c : Thread nD τ).loc main_arg0)) (Cert.ReferenceIdeal.ReadP.val_main_v3 (m ((c : Thread nD τ).loc main_arg1))) (Cert.ReferenceIdeal.ReadP.val_main_v6 (m ((c : Thread nD τ).loc main_arg1))) (Cert.ReferenceIdeal.ReadP.val_main_v31 (m ((c : Thread nD τ).loc main_arg1)))
        (m ((c : Thread nD τ).loc main_arg2)) (m ((c : Thread nD τ).loc main_arg3)) (m ((c : Thread nD τ).loc main_arg4)) (m ((c : Thread nD τ).loc main_arg5)) := by
  refine (W11_hidden m ρ c).trans ?_
  refine ((W10_arr m ρ c 2).trans (Region3.value (V9 m ρ) c)).trans ?_
  show Cert.Spec.biasRelu40 (F := Ideal) (W9 m ρ c (Proc.devRef .tc main_v62)) (W9 m ρ c (Proc.devRef .tc main_arg5)) = _
  rw [W9_agg, W9_arg5, W8_product, W8_src, W8_dst, W8_coeff, W6_layer1]
  rfl

/-- The program's second result: the head applied to the first result. -/
theorem result1 (c : Dev nD) : W11 m ρ c (Proc.devRef .tc main_v64)
    = Cert.Spec.head (F := Ideal) (Cert.Spec.hidden2 (m ((c : Thread nD τ).loc main_arg0)) (Cert.ReferenceIdeal.ReadP.val_main_v3 (m ((c : Thread nD τ).loc main_arg1))) (Cert.ReferenceIdeal.ReadP.val_main_v6 (m ((c : Thread nD τ).loc main_arg1))) (Cert.ReferenceIdeal.ReadP.val_main_v31 (m ((c : Thread nD τ).loc main_arg1)))
        (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) := by
  refine ((W11_arr m ρ c 3).trans (Region4.value (V10 m ρ) c)).trans ?_
  show Cert.Spec.head (F := Ideal) (W10 m ρ c (Proc.devRef .tc main_v63)) (W10 m ρ c (Proc.devRef .tc main_arg6)) (W10 m ρ c (Proc.devRef .tc main_arg7)) = _
  rw [W10_arg6, W10_arg7, ← W11_hidden, result0]

end Cert.KernelIdeal.Fold

end
-- ==== Proof.RefStages.lean ====
/-
  The reference, read stage by stage, is the two-layer network of the specification.

  The reference builds the edge lists (sources and targets, self loops appended) and the edges' symmetric
  normalisation coefficients once per layer; both computations are the same function of the edge index array, so the
  second layer may use the first layer's lists and coefficients. With that, each layer is: dense product, message
  pass, bias and clamp — the specification's operations, spelt identically — and the head is a dense product plus bias.
-/
import proofs.«117765_j24180665876563_1_alg».proof.Proof.RefRead
import proofs.«117765_j24180665876563_1_alg».proof.Proof.Spec

set_option maxRecDepth 16384

noncomputable section

namespace Cert.ReferenceIdeal.Stages

open Cert.ReferenceIdeal Cert.ReferenceIdeal.Gen Cert.ReferenceIdeal.ReadP Idealize.ShloMosaic

variable {F : FTy → Type} [FloatOps F]

/-- The sources of the 850000 edges, as the reference first computes them. -/
abbrev srcOf (x1 : (⟨S2x800000, .i32⟩ : BufTy).Contents (Elt F)) : (⟨S850000, .i32⟩ : BufTy).Contents (Elt F) := val_main_v3 (F := F) x1
/-- The targets of the edges. -/
abbrev dstOf (x1 : (⟨S2x800000, .i32⟩ : BufTy).Contents (Elt F)) : (⟨S850000, .i32⟩ : BufTy).Contents (Elt F) := val_main_v6 (F := F) x1
/-- The edges' normalisation coefficients: the product of the inverse square roots of the two endpoints' degrees. -/
abbrev coeffOf (x1 : (⟨S2x800000, .i32⟩ : BufTy).Contents (Elt F)) : (⟨S850000, .f32⟩ : BufTy).Contents (Elt F) := val_main_v31 (F := F) x1

/-- The second layer's source list is the first layer's: the same slice, reshape and concatenation. -/
theorem src_again (x1 : (⟨S2x800000, .i32⟩ : BufTy).Contents (Elt F)) : val_main_v53 (F := F) x1 = val_main_v3 (F := F) x1 := rfl

/-- The second layer's target list is the first layer's. -/
theorem dst_again (x1 : (⟨S2x800000, .i32⟩ : BufTy).Contents (Elt F)) : val_main_v56 (F := F) x1 = val_main_v6 (F := F) x1 := rfl

/-- The second layer's degrees are the first layer's: ones added into the target positions. -/
theorem deg_again (x1 : (⟨S2x800000, .i32⟩ : BufTy).Contents (Elt F)) : val_main_v60 (F := F) x1 = val_main_v10 (F := F) x1 := by
  unfold val_main_v60 val_main_v10 val_main_v59 val_main_v9
  rw [dst_again]
  rfl

/-- The second layer's inverse square roots of the degrees (zero where the degree is zero) are the first layer's. -/
theorem dinv_again (x1 : (⟨S2x800000, .i32⟩ : BufTy).Contents (Elt F)) : val_main_v66 (F := F) x1 = val_main_v16 (F := F) x1 := by
  unfold val_main_v66 val_main_v16 val_main_v62 val_main_v12 val_main_v65 val_main_v15 val_main_v64 val_main_v14
  rw [deg_again]
  rfl

/-- The second layer's coefficients are the first layer's. -/
theorem coeff_again (x1 : (⟨S2x800000, .i32⟩ : BufTy).Contents (Elt F)) : val_main_v81 (F := F) x1 = val_main_v31 (F := F) x1 := by
  unfold val_main_v81 val_main_v31 val_main_v73 val_main_v23 val_main_v80 val_main_v30 val_main_v72 val_main_v22 val_main_v79 val_main_v29
    val_main_v71 val_main_v21 val_main_v78 val_main_v28 val_main_v68 val_main_v18 val_main_v70 val_main_v20 val_main_v75 val_main_v25 val_main_v77 val_main_v27
  rw [dinv_again, src_again, dst_again]
  rfl

/-- The first layer: product, message pass, bias and clamp. -/
theorem layer1 (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) :
    val_main_v49 (F := F) x0 x1 x2 x3
      = Cert.Spec.biasRelu128 (Cert.Spec.agg128 (Cert.Spec.mm1 x0 x2) (srcOf x1) (dstOf x1) (coeffOf x1)) x3 := rfl

/-- The network's first result: the second layer over the first layer's lists and coefficients. -/
theorem result0 (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) :
    val_main_v99 (F := F) x0 x1 x2 x3 x4 x5
      = Cert.Spec.hidden2 x0 (srcOf x1) (dstOf x1) (coeffOf x1) x2 x3 x4 x5 := by
  unfold val_main_v99 val_main_v98 val_main_v95 val_main_v94 val_main_v92 val_main_v91 val_main_v90 val_main_v89 val_main_v88 val_main_v87
    val_main_v86 val_main_v84 val_main_v82
  rw [coeff_again, dst_again, src_again, layer1]
  rfl

/-- The network's second result: the head applied to the first result. -/
theorem result1 (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) (x6 : (⟨S40x40, .f32⟩ : BufTy).Contents (Elt F)) (x7 : (⟨S40, .f32⟩ : BufTy).Contents (Elt F)) :
    val_main_v103 (F := F) x0 x1 x2 x3 x4 x5 x6 x7
      = Cert.Spec.head (Cert.Spec.hidden2 x0 (srcOf x1) (dstOf x1) (coeffOf x1) x2 x3 x4 x5) x6 x7 := by
  unfold val_main_v103 val_main_v100
  rw [result0]
  rfl

end Cert.ReferenceIdeal.Stages

end
-- ==== Proof.lean ====
/-
  A two-layer graph-convolution network with a linear head: the kernel program against its array-level reference.

  Both programs build, from the edge index array, the edges' source and target lists (self loops appended) and the
  symmetric normalisation coefficients, and both pass messages with the same whole-array gather, scale and
  scatter-add. They differ in two ways. The kernel program computes the three dense products and the two
  bias-and-clamp steps in ten blocks of 5000 rows each, its matrix unit fed through a narrower float format and
  accumulating from zero; over the extended reals the change of format is the identity and a block of the product
  is the product's rows of that block, so each region leaves in its output array the whole-array operation of its
  input arrays. And the reference builds the lists and coefficients once per layer where the kernel program builds
  them once; the two computations are one function of the edge index array. Hence both programs end with the same
  two arrays, the second layer's output and the head's, as functions of the arguments; no law is used that would
  need the inputs to be finite. The kernel program's idealization rewrote nothing, so that claim is trivial; the
  three frames are the generated ones and the reference's run with its results dropped.
-/
import proofs.«117765_j24180665876563_1_alg».proof.Defs
import proofs.«117765_j24180665876563_1_alg».proof.Proof.Gen.Kernel
import proofs.«117765_j24180665876563_1_alg».proof.Proof.Gen.Kernel.Skeleton
import proofs.«117765_j24180665876563_1_alg».proof.Proof.Gen.Kernel.Launch
import proofs.«117765_j24180665876563_1_alg».proof.Proof.Gen.Kernel.Points
import proofs.«117765_j24180665876563_1_alg».proof.Proof.Gen.Kernel.Frame
import proofs.«117765_j24180665876563_1_alg».proof.Proof.Gen.KernelIdeal
import proofs.«117765_j24180665876563_1_alg».proof.Proof.Gen.KernelIdeal.Skeleton
import proofs.«117765_j24180665876563_1_alg».proof.Proof.Gen.KernelIdeal.Launch
import proofs.«117765_j24180665876563_1_alg».proof.Proof.Gen.KernelIdeal.Points
import proofs.«117765_j24180665876563_1_alg».proof.Proof.Gen.KernelIdeal.Frame
import proofs.«117765_j24180665876563_1_alg».proof.Proof.Gen.ReferenceIdeal
import proofs.«117765_j24180665876563_1_alg».proof.Proof.Gen.Pre_finite_inputs
import proofs.«117765_j24180665876563_1_alg».proof.Proof.KernelRun
import proofs.«117765_j24180665876563_1_alg».proof.Proof.KernelValue
import proofs.«117765_j24180665876563_1_alg».proof.Proof.RefStages
import Idealize.ShloMosaic.Adequacy
import Idealize.ShloMosaic.Init

set_option maxRecDepth 16384

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.RunP.run (F := Ideal) m ρ)

/-- The two programs, run from memories that agree on the arguments, end with the same two arrays: each is the
    specification's network of the arguments, the kernel program's by its regions and stretches, the reference's by
    its stages. -/
theorem algebraic : Cert.algebraic_KernelIdeal_ReferenceIdeal := by
  intro m ρ m' ρ' _ hagree
  refine ⟨fun c => Cert.KernelIdeal.Gen.W11 m ρ c (Proc.devRef .tc Cert.KernelIdeal.main_v63),
    fun c => Cert.KernelIdeal.Gen.W11 m ρ c (Proc.devRef .tc Cert.KernelIdeal.main_v64),
    Cert.KernelIdeal.Launch.run_results (F := Ideal) m ρ, ?_⟩
  refine (θ_run Cert.ReferenceIdeal.defs _ _).mono (fun _ h c => ?_) (Cert.ReferenceIdeal.RunP.run (F := Ideal) m' ρ')
  obtain ⟨e0, e1, e2, e3, e4, e5, e6, e7⟩ := hagree c
  refine ⟨(h c).1.trans ?_, (h c).2.1.trans ?_, (h c).2.2⟩
  · rw [Cert.ReferenceIdeal.ReadP.val_main_v99_eq, Cert.ReferenceIdeal.Stages.result0, e0, e1, e2, e3, e4, e5]
    exact (Cert.KernelIdeal.Fold.result0 m ρ c).symm
  · rw [Cert.ReferenceIdeal.ReadP.val_main_v103_eq, Cert.ReferenceIdeal.Stages.result1, e0, e1, e2, e3, e4, e5, e6, e7]
    exact (Cert.KernelIdeal.Fold.result1 m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
